-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S8192x2048 .f32) (main_arg1 : FVec F S2048x2048 .f32) (main_arg2 : FVec F S2048x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  main_v13
-- ==== Kernel.lean ====
abbrev S8192x2048 : Shape := ⟨2, ![8192, 2048]⟩
abbrev S2048x2048 : Shape := ⟨2, ![2048, 2048]⟩
abbrev S1x2048 : Shape := ⟨2, ![1, 2048]⟩
abbrev S512x2048 : Shape := ⟨2, ![512, 2048]⟩
abbrev S2048 : Shape := ⟨1, ![2048]⟩
abbrev S1024x256 : Shape := ⟨2, ![1024, 256]⟩
abbrev S256x1024 : Shape := ⟨2, ![256, 1024]⟩
abbrev S1x1024 : Shape := ⟨2, ![1, 1024]⟩
abbrev S1024x1024 : Shape := ⟨2, ![1024, 1024]⟩

abbrev nBuf : Space → Nat
  | .hbm => 5
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1024x256, .f32⟩
  | .local _ .vmem, ⟨4, _⟩ => ⟨S1024x256, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_scratch0 : Ref sig .tc := ⟨.vmem, 11, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨3, ![8, 2, 8], ![false, false, false]⟩

def k1_cond2 (i : grid1.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S512x2048_S512x2048_0_0 : ∀ a, (![0, 0] : Fin 2 → Nat) a + S512x2048.size a ≤ S512x2048.size a
  h_S512x2048 : 0 < S512x2048.numel
  reduces_S512x2048_S2048 : S512x2048.Reduces [0] S2048
  shapeCasts_S2048_S1x2048 : S2048.ShapeCasts S1x2048
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S2048x2048.size a
  hwx0_0 : ∀ i : grid0.Coords, EltTy.bits .f32 = 32 ∨ (Rect.block (s := S2048x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x2048.size a
  hwx1_0 : ∀ i : grid1.Coords, EltTy.bits .f32 = 32 ∨ (Rect.block (s := S8192x2048) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x1024.size a ≤ S2048x2048.size a
  hwx1_1 : ∀ i : grid1.Coords, EltTy.bits .f32 = 32 ∨ (Rect.block (s := S2048x2048) S256x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x2048.size a
  hwx1_2 : ∀ i : grid1.Coords, EltTy.bits .f32 = 32 ∨ (Rect.block (s := S1x2048) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x2048.size a
  hwx1_3 : ∀ i : grid1.Coords, EltTy.bits .f32 = 32 ∨ (Rect.block (s := S8192x2048) S1024x1024.size (cc1_transform_3 i) (hinb1_3 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg2) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S256x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x2048 : Shape := ⟨2, ![8192, 2048]⟩
abbrev S2048x2048 : Shape := ⟨2, ![2048, 2048]⟩
abbrev S_ : Shape := ⟨0, ![]⟩
abbrev S2048 : Shape := ⟨1, ![2048]⟩
abbrev S1x2048 : Shape := ⟨2, ![1, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S2048, .f32⟩
  | .hbm, ⟨7, _⟩ => ⟨S1x2048, .f32⟩
  | .hbm, ⟨8, _⟩ => ⟨S8192x2048, .f32⟩
  | .hbm, ⟨9, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  reducesTo_S2048x2048_S2048_d0 : S2048x2048.ReducesTo [0] S2048
  h_S_ : 0 < S_.numel
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  dot_S8192x2048_S2048x2048_S8192x2048_1_0_0_1_n_n_wf : DotDims.WF S8192x2048 S2048x2048 S8192x2048 [1] [0] [0] [1] [] []

variable [Facts₀]

def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf

class Facts : Prop extends Facts₀ where

variable [Facts]
-- ==== Proof.Kernel.BiasDefs.lean ====
/-
  Region 0 of the kernel program (the column sums of the third argument), at the contents `V` the region is
  entered with: what the output window's one staging buffer holds after each grid point, and the pipeline's
  proof data. The grid has 4 points; point `n` stages rows 512·n … 512·n+511 of the array
  and the 1×2048 output block is kept in its staging buffer across the points and written back after the last.
-/
import proofs.«169282_j52450140619301_1_alg».proof.Proof.Gen.Kernel.Launch
import proofs.«169282_j52450140619301_1_alg».proof.Proof.Gen.Kernel.Skeleton
import proofs.«169282_j52450140619301_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of the argument staged at point `t`, at their literal type. -/
abbrev rows0 (c : Dev nD) (t : Fin cfg0.N) : Vec F S512x2048 .f32 := iblk0 V c 0 t

/-- THE ACCUMULATION: what the output's staging buffer holds after the body at point `n`: at the first point the
    zero row plus the column sums of the staged rows, afterwards what the point before left plus them. -/
def acc0 (c : Dev nD) : (n : ℕ) → n < cfg0.N → Vec F S1x2048 .f32
  | 0, hn => k0_pay2 (k0_pay1 (F := F)) (rows0 V c ⟨0, hn⟩)
  | n + 1, hn => k0_pay2 (acc0 c n (Nat.lt_of_succ_lt hn)) (rows0 V c ⟨n + 1, hn⟩)

theorem acc0_zero (c : Dev nD) (t : Fin cfg0.N) (h : t.val = 0) :
    acc0 V c t.val t.isLt = k0_pay2 (k0_pay1 (F := F)) (rows0 V c t) := by
  obtain ⟨n, hn⟩ := t; subst h; rfl

theorem acc0_pos (c : Dev nD) (t : Fin cfg0.N) (h : t.val ≠ 0) :
    acc0 V c t.val t.isLt = k0_pay2 (acc0 V c (t.val - 1) (Nat.lt_of_le_of_lt (Nat.sub_le _ _) t.isLt)) (rows0 V c t) := by
  obtain ⟨n, hn⟩ := t
  cases n with
  | zero => exact absurd rfl h
  | succ n => rfl

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => acc0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = acc0 V c t.val t.isLt := by dsimp only [dat0]

end Cert.Kernel.Hand

end
-- ==== Proof.Kernel.Bias.lean ====
/-
  Region 0 of the kernel program (the column sums of the third argument), at the contents `V` the region is
  entered with: the body obligation, over the accumulation and the proof data of BiasDefs. The body has two cases:
  at the first point it stores the zero row into the output block and then adds the staged rows' column sums to it;
  at the later points it adds them to what the point before left (the block is not written back in between).
-/
import proofs.«169282_j52450140619301_1_alg».proof.Proof.Gen.Kernel.Launch
import proofs.«169282_j52450140619301_1_alg».proof.Proof.Gen.Kernel.Skeleton
import proofs.«169282_j52450140619301_1_alg».proof.Proof.Gen.Kernel.Points
import proofs.«169282_j52450140619301_1_alg».proof.Proof.Kernel.BiasDefs
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The guard of the body's conditional -/

/-- The body resets the output block exactly when this holds: the first grid coordinate, as a 32-bit word, compares
    equal to zero (the conditional's scalar chain, from the coordinates). -/
abbrev isFirst0 (i : grid0.Coords) : Prop :=
  Scalar.cmpi .ne (Scalar.extui (Scalar.cmpi .eq (BitVec.ofNat 32 (i 0).val) 0#32)) 0#32 = 1#1

/-- Over the four points of the grid the guard holds at point 0 and nowhere else. -/
theorem isFirst0_iff : ∀ t : Fin cfg0.N, isFirst0 (grid0.coords t) ↔ t.val = 0 :=
  (by decide +kernel : ∀ t : Fin grid0.N, isFirst0 (grid0.coords t) ↔ t.val = 0)

/-! ## What the staging buffers hold when the body is entered -/

/-- The input window is staged afresh at every point and the body only reads it: on entry its buffer holds the
    point's block of the array. -/
theorem before0_0 (c : Dev nD) (t : Fin cfg0.N) (d) : (dat0 V c).before 0 t d = iblk0 V c 0 t := by
  refine ((dat0 V c).before_in_eq_fetched 0 rfl (fun _ => rfl) (fun _ _ _ => rfl) (fun s => ?_) t d).trans ?_
  · rw [after0_0]; unfold Dat.blockOf iblk0; rw [A_eq0]; try rfl
  · unfold Dat.fetched Dat.blockOf iblk0; rw [A_eq0]; try rfl

/-- The output window is written back after the last point only, so at a later point its buffer still holds the
    running sum the point before left there. -/
theorem before0_1_later (c : Dev nD) (t : Fin cfg0.N) (h : t.val ≠ 0) (d) :
    (dat0 V c).before 1 t d = acc0 V c (t.val - 1) (Nat.lt_of_le_of_lt (Nat.sub_le _ _) t.isLt) := by
  have hN : t.val < 4 := lt_of_lt_of_eq t.isLt (show cfg0.N = 4 from N_0)
  have hnf : (cfg0.win 1).flush ⟨t.val - 1, Nat.lt_of_le_of_lt (Nat.sub_le _ _) t.isLt⟩ = false :=
    Bool.eq_false_iff.mpr fun hf => by
      have := (flush0_1 _).mp hf
      dsimp only at this
      omega
  rw [Dat.before_out_kept _ 1 rfl t h hnf (fun _ => rfl) (fun _ _ => rfl)]
  dsimp only [dat0]

/-! ## The body on whole staging buffers

Every load and store of the body goes through the rectangle that is the whole staging buffer: all of its sizes, at
offsets zero. A load through it reads the contents; a store through it, being the last, decides the contents. -/

/-- The offsets of the body's accesses to the output buffer are zero on both axes. -/
theorem offs_out0 : (![0, 0] : Fin S1x2048.rank → Nat) = fun _ => 0 := by
  funext a; fin_cases a <;> rfl

/-- So are those of its access to the input buffer. -/
theorem offs_in0 : (![0, 0] : Fin S512x2048.rank → Nat) = fun _ => 0 := by
  funext a; fin_cases a <;> rfl

set_option maxHeartbeats 1000000 in
/-- AT THE FIRST POINT the guard holds: the body stores the zero row over whatever the output buffer held, reads it
    back, adds the column sums of the staged rows and stores the result. The input buffer is only read. -/
theorem run0_first (c : Dev nD) (E : Set ℕ) (i : grid0.Coords) (arg1 : Memref sig .tc .vmem S512x2048 .f32) (harg1 : arg1.IsWhole)
    (arg2 : Memref sig .tc .vmem S1x2048 .f32) (harg2 : arg2.IsWhole) (hc0 : isFirst0 i)
    (x0 : Vec F S512x2048 .f32) (K : PUnit → sProp 𝕄) :
    iprop(owns (c : Thread nD τ) arg1 fullShare x0 ∗ (∃ d, owns (c : Thread nD τ) arg2 fullShare d)
        ∗ (iprop(owns (c : Thread nD τ) arg1 fullShare x0
            ∗ owns (c : Thread nD τ) arg2 fullShare (k0_pay2 (k0_pay1 (F := F)) x0)) -∗ K ⟨⟩))
      ⊢ wp frame (wpE (defs₀ (F := F)) Variants.none c none) E (cc0__bias_kernel i arg1 harg1 arg2 harg2) K := by
  simp only [cc0__bias_kernel_eq_skeleton]; unfold cc0__bias_kernel_skel
  unfold owns
  iintro ⟨⟨%f0, %hf0, H0⟩, ⟨%d1, %f1, -, H1⟩, Hk⟩
  obtain rfl := harg1.eq_unread hf0
  sl_exec (disch := first | exact hc0)
  sl_step
  iapply Hk
  isplitl [H0]
  · iexists _; isplitr
    · ipureintro; exact harg1.read_unread _
    · iexact H0
  iexists _; isplitr
  swap
  · iexact H1
  ipureintro
  -- the last store is through the whole buffer, so the buffer reads as that store's payload
  rw [View.read_writes_eq_canon _ _ _ (fun y => ⟨_, List.mem_cons_self, View.mem_set_unit_zero offs_out0 inb_S1x2048_S1x2048_0_0 y⟩)]
  sl_unfold_words
  rw [View.canon_cons_unit_zero (S := S1x2048) offs_out0]
  -- the load between the two stores reads back the zero row the first of them left
  simp only [View.readCov_unit_zero (S := S1x2048) _ offs_out0, View.readAt_eq_ld, harg1.read_unread,
    View.ld_unit_zero (S := S512x2048) offs_in0]

set_option maxHeartbeats 1000000 in
/-- AT A LATER POINT the guard fails: the body reads the running sum out of the output buffer, adds the column sums
    of the staged rows and stores the result. -/
theorem run0_later (c : Dev nD) (E : Set ℕ) (i : grid0.Coords) (arg1 : Memref sig .tc .vmem S512x2048 .f32) (harg1 : arg1.IsWhole)
    (arg2 : Memref sig .tc .vmem S1x2048 .f32) (harg2 : arg2.IsWhole) (hc0 : ¬isFirst0 i)
    (x0 : Vec F S512x2048 .f32) (xo : Vec F S1x2048 .f32) (K : PUnit → sProp 𝕄) :
    iprop(owns (c : Thread nD τ) arg1 fullShare x0 ∗ owns (c : Thread nD τ) arg2 fullShare xo
        ∗ (iprop(owns (c : Thread nD τ) arg1 fullShare x0
            ∗ owns (c : Thread nD τ) arg2 fullShare (k0_pay2 xo x0)) -∗ K ⟨⟩))
      ⊢ wp frame (wpE (defs₀ (F := F)) Variants.none c none) E (cc0__bias_kernel i arg1 harg1 arg2 harg2) K := by
  simp only [cc0__bias_kernel_eq_skeleton]; unfold cc0__bias_kernel_skel
  unfold owns
  iintro ⟨⟨%f0, %hf0, H0⟩, ⟨%f1, %hf1, H1⟩, Hk⟩
  obtain rfl := harg1.eq_unread hf0; obtain rfl := harg2.eq_unread hf1
  sl_exec (disch := first | exact hc0)
  sl_step
  iapply Hk
  isplitl [H0]
  · iexists _; isplitr
    · ipureintro; exact harg1.read_unread _
    · iexact H0
  iexists _; isplitr
  swap
  · iexact H1
  ipureintro
  -- the one store is through the whole buffer; both loads before it read the buffers' contents
  rw [View.read_writes_eq_canon _ _ _ (fun y => ⟨_, List.mem_singleton_self _, View.mem_set_unit_zero offs_out0 inb_S1x2048_S1x2048_0_0 y⟩)]
  sl_unfold_words
  rw [View.canon_unit_zero (S := S1x2048) offs_out0]
  simp only [View.readAt_eq_ld, harg1.read_unread, harg2.read_unread,
    View.ld_unit_zero (S := S1x2048) offs_out0, View.ld_unit_zero (S := S512x2048) offs_in0]

/-! ## The body obligation, at a generic point -/

/-- What the pipeline calls the body with at point `t`: the invariant, what the core owes, and each window's current
    staging buffer at what it holds on entry; -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it must return: the same with each buffer at what the proof data say the body leaves. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

set_option maxHeartbeats 1000000 in
/-- The body at any point. The input buffer holds the point's rows. At point 0 the guard holds and the output buffer,
    whatever it held, ends at the zero row plus the rows' column sums, which is the accumulation's first value; at a
    later point the guard fails, the output buffer holds the accumulation's value at the point before, and it ends at
    that plus the rows' column sums, which is the accumulation's next value. The invariant and what the core owes are
    not touched. -/
theorem sound_body0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0]
  rw [show (dat0 V c).Φ t.succ = (dat0 V c).Φ t.castSucc from rfl,
    show (dat0 V c).owesAt () t.succ = (dat0 V c).owesAt () t.castSucc from rfl,
    after0_0, after0_1]
  by_cases h0 : t.val = 0
  · rw [acc0_zero V c t h0]
    iintro ⟨HΦ, Ho, ⟨%d0, H0⟩, ⟨%d1, H1⟩⟩
    iapply (run0_first c Set.univ (grid0.coords t) _ _ _ _ ((isFirst0_iff t).mpr h0) (rows0 V c t) _)
    isplitl [H0]
    · iexact H0
    isplitl [H1]
    · iexists _; iexact H1
    iintro ⟨H0, H1⟩
    isplitl [HΦ]
    · iexact HΦ
    isplitl [Ho]
    · iexact Ho
    isplitl [H0]
    · iexact H0
    iexact H1
  · rw [acc0_pos V c t h0]
    simp only [before0_1_later V c t h0]
    iintro ⟨HΦ, Ho, ⟨%d0, H0⟩, ⟨%d1, H1⟩⟩
    iapply (run0_later c Set.univ (grid0.coords t) _ _ _ _ (fun h => h0 ((isFirst0_iff t).mp h)) (rows0 V c t)
      (acc0 V c (t.val - 1) (Nat.lt_of_le_of_lt (Nat.sub_le _ _) t.isLt)) _)
    isplitl [H0]
    · iexact H0
    isplitl [H1]
    · iexact H1
    iintro ⟨H0, H1⟩
    isplitl [HΦ]
    · iexact HΦ
    isplitl [Ho]
    · iexact Ho
    isplitl [H0]
    · iexact H0
    iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.MatmulDefs.lean ====
/-
  Region 1 of the kernel program (tanh of the first argument times the second, plus the bias row), at the contents
  `V` the region is entered with. The grid is 8 × 2 × 8, the last axis the contraction's: point (i, j, k) stages a
  1024×256 block of the first argument, a 256×1024 block of the second and columns 1024·j … of the bias row, and
  adds the block product into a 1024×1024 scratch accumulator that is zeroed at k = 0 and, at k = 7, stored with the
  bias row added into the output block (i, j). Here: what the scratch holds after each point, the region's invariant
  carrying it and the proof data.
-/
import proofs.«169282_j52450140619301_1_alg».proof.Proof.Gen.Kernel.Launch
import proofs.«169282_j52450140619301_1_alg».proof.Proof.Gen.Kernel.Skeleton
import proofs.«169282_j52450140619301_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The three input blocks staged at point `t`, at their literal types. -/
abbrev xblk1 (c : Dev nD) (t : Fin cfg1.N) : Vec F S1024x256 .f32 := iblk1 V c 0 t
abbrev wblk1 (c : Dev nD) (t : Fin cfg1.N) : Vec F S256x1024 .f32 := iblk1 V c 1 t
abbrev bblk1 (c : Dev nD) (t : Fin cfg1.N) : Vec F S1x1024 .f32 := iblk1 V c 2 t

/-- The scratch accumulator, a whole scoped buffer of the kernel's own. -/
abbrev scM1 : Memref sig .tc .vmem S1024x1024 .f32 := Memref.whole cc1_scratch0

/-- THE ACCUMULATION: what the scratch holds after the body at point `n`: where the contraction coordinate is 0
    (`n % 8 = 0`) the zero block plus the point's block product, elsewhere what the point before left plus it. -/
def sc1 (c : Dev nD) : (n : ℕ) → n < cfg1.N → Vec F S1024x1024 .f32
  | 0, hn => k1_pay2 (xblk1 V c ⟨0, hn⟩) (wblk1 V c ⟨0, hn⟩) (k1_pay1 (F := F))
  | n + 1, hn =>
    if (n + 1) % 8 = 0 then k1_pay2 (xblk1 V c ⟨n + 1, hn⟩) (wblk1 V c ⟨n + 1, hn⟩) (k1_pay1 (F := F))
    else k1_pay2 (xblk1 V c ⟨n + 1, hn⟩) (wblk1 V c ⟨n + 1, hn⟩) (sc1 c n (Nat.lt_of_succ_lt hn))

theorem sc1_reset (c : Dev nD) (t : Fin cfg1.N) (h : t.val % 8 = 0) :
    sc1 V c t.val t.isLt = k1_pay2 (xblk1 V c t) (wblk1 V c t) (k1_pay1 (F := F)) := by
  obtain ⟨n, hn⟩ := t
  cases n with
  | zero => rfl
  | succ n => exact if_pos h

theorem sc1_step (c : Dev nD) (t : Fin cfg1.N) (h : ¬t.val % 8 = 0) :
    sc1 V c t.val t.isLt = k1_pay2 (xblk1 V c t) (wblk1 V c t) (sc1 V c (t.val - 1) (Nat.lt_of_le_of_lt (Nat.sub_le _ _) t.isLt)) := by
  obtain ⟨n, hn⟩ := t
  cases n with
  | zero => exact absurd (Nat.zero_mod _) h
  | succ n => exact if_neg h

/-- What the output window's staging buffer holds after the body where the contraction coordinate is 7 (the only
    points that store it and the only ones after which it is written back): the scratch plus the bias row. -/
def out3 (c : Dev nD) (t : Fin cfg1.N) : Vec F S1024x1024 .f32 :=
  k1_pay3 (bblk1 V c t) (sc1 V c t.val t.isLt)

/-- The region's invariant before position `n`: before the first point the class's (every scoped buffer that is no
    staging buffer of this region at anything, the generator register at some state); afterwards the same with the
    scratch at what the point before left in it. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ owns (c : Thread nD τ) scM1 fullShare (sc1 V c n hn)) ∗ (∃ r, prngReg c r))

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out3 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out3 V c t := by dsimp only [dat1]

end Cert.Kernel.Hand

end
-- ==== Proof.Kernel.Matmul.lean ====
/-
  Region 1 of the kernel program (tanh of the first argument times the second, plus the bias row), at the contents
  `V` the region is entered with. The grid is 8 × 2 × 8, the last axis the contraction's: point (i, j, k) stages a
  1024×256 block of the first argument, a 256×1024 block of the second and columns 1024·j … of the bias row, and
  adds the block product into a 1024×1024 scratch accumulator that is zeroed at k = 0 and, at k = 7, stored with the
  bias row added into the output block (i, j). Here, over the accumulation, the invariant and the proof data of
  MatmulDefs: the body's triple in each of its three cases, the body obligation at every point, and the invariant's
  two ends.
-/
import proofs.«169282_j52450140619301_1_alg».proof.Proof.Gen.Kernel.Launch
import proofs.«169282_j52450140619301_1_alg».proof.Proof.Gen.Kernel.Skeleton
import proofs.«169282_j52450140619301_1_alg».proof.Proof.Gen.Kernel.Points
import proofs.«169282_j52450140619301_1_alg».proof.Proof.Kernel.MatmulDefs
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two conditionals, in closed form over the grid -/

/-- The first conditional's test, from the grid coordinates: the contraction coordinate is 0 (where the scratch
    is zeroed before the block product is added). -/
abbrev condA1 (i : grid1.Coords) : Prop :=
  (Scalar.cmpi .ne (Scalar.extui (Scalar.cmpi .eq (BitVec.ofNat 32 (i 2).val) 0#32)) 0#32) = 1#1
/-- The contraction coordinate is the point's position modulo 8: the test holds at the positions ≡ 0. -/
theorem hcondA1 : ∀ t : Fin cfg1.N, condA1 (grid1.coords t) ↔ t.val % 8 = 0 :=
  (by decide +kernel : ∀ t : Fin grid1.N, condA1 (grid1.coords t) ↔ t.val % 8 = 0)

/-- The second conditional's test: the contraction coordinate is 7 (where the output block is stored). -/
abbrev condC1 (i : grid1.Coords) : Prop := k1_cond2 i = 1#1
/-- It holds at the positions ≡ 7 (mod 8). -/
theorem hcondC1 : ∀ t : Fin cfg1.N, condC1 (grid1.coords t) ↔ t.val % 8 = 7 :=
  (by decide +kernel : ∀ t : Fin grid1.N, condC1 (grid1.coords t) ↔ t.val % 8 = 7)

/-! ## Where the windows are idle -/

/-- The three input windows are never idle. -/
theorem live1_0 : ∀ i : grid1.Coords, cfg1.idle 0 i = false := fun _ => rfl
theorem live1_1 : ∀ i : grid1.Coords, cfg1.idle 1 i = false := fun _ => rfl
theorem live1_2 : ∀ i : grid1.Coords, cfg1.idle 2 i = false := fun _ => rfl
/-- The output window is idle exactly where the second test fails: the body stores nothing into it there. -/
theorem idle1_3 : ∀ t : Fin cfg1.N, ¬t.val % 8 = 7 → cfg1.idle 3 (grid1.coords t) = true :=
  (by decide +kernel : ∀ t : Fin grid1.N, ¬t.val % 8 = 7 → cfg1.idle 3 (grid1.coords t) = true)
theorem live1_3 : ∀ t : Fin cfg1.N, t.val % 8 = 7 → cfg1.idle 3 (grid1.coords t) = false :=
  (by decide +kernel : ∀ t : Fin grid1.N, t.val % 8 = 7 → cfg1.idle 3 (grid1.coords t) = false)
/-- Nor is its block written back there (it is written back at the positions ≡ 7 only). -/
theorem noFlush1_3 (t : Fin cfg1.N) (h : ¬t.val % 8 = 7) : (cfg1.win 3).flush t = false :=
  Bool.eq_false_iff.mpr fun hf => h ((flush1_3 t).mp hf)

/-! ## The input windows hold their blocks at every point -/

/-- The first argument's block: fetched at every point. -/
theorem before1_0 (c : Dev nD) (t : Fin cfg1.N) (d) : (dat1 V c).before 0 t d = iblk1 V c 0 t :=
  ((dat1 V c).before_in_eq_fetched 0 rfl live1_0 (fun _ _ _ => rfl)
    (fun t => by rw [after1_0]; unfold Dat.blockOf iblk1; rw [A_eq1]; try rfl) t d).trans
    (by unfold Dat.fetched Dat.blockOf iblk1; rw [A_eq1]; try rfl)
/-- The second argument's block: fetched at every point. -/
theorem before1_1 (c : Dev nD) (t : Fin cfg1.N) (d) : (dat1 V c).before 1 t d = iblk1 V c 1 t :=
  ((dat1 V c).before_in_eq_fetched 1 rfl live1_1 (fun _ _ _ => rfl)
    (fun t => by rw [after1_1]; unfold Dat.blockOf iblk1; rw [A_eq1]; try rfl) t d).trans
    (by unfold Dat.fetched Dat.blockOf iblk1; rw [A_eq1]; try rfl)
/-- The bias row's block: fetched where the contraction coordinate is 0 and found unchanged at the seven points
    after (its block index does not move along the contraction axis, and the body leaves it in place). -/
theorem before1_2 (c : Dev nD) (t : Fin cfg1.N) (d) : (dat1 V c).before 2 t d = iblk1 V c 2 t :=
  ((dat1 V c).before_in_eq_fetched 2 rfl live1_2 (fun _ _ _ => rfl)
    (fun t => by rw [after1_2]; unfold Dat.blockOf iblk1; rw [A_eq1]; try rfl) t d).trans
    (by unfold Dat.fetched Dat.blockOf iblk1; rw [A_eq1]; try rfl)

/-! ## The invariant, position by position -/

/-- What the launch hands the region, spelt out: region 0's three staging buffers at anything, the scratch owned
    as a memref at some contents, the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ d, owns (c : Thread nD τ) scM1 fullShare d)) ∗ (∃ r, prngReg c r)) := by
  unfold Pipeline.ΦA; rw [scopedRest1_eq]; simp only [scM1, owns_whole]; try rfl

theorem PhiS1_zero (c : Dev nD) (n : ℕ) (h : n ≤ cfg1.N) (hz : n = 0) : PhiS1 V c n h = Pipeline.ΦA spec1 c := by
  subst hz; rfl

/-- After point `n`: the scratch at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ owns (c : Thread nD τ) scM1 fullShare (sc1 V c n hn)) ∗ (∃ r, prngReg c r)) := rfl

/-- Before a point that is not the first: the scratch at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ owns (c : Thread nD τ) scM1 fullShare (sc1 V c (n - 1) (by omega))) ∗ (∃ r, prngReg c r)) := by
  cases n with
  | zero => exact absurd rfl hz
  | succ n => rfl

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-! ## The body on whole staging memrefs, case by case -/

/-- The zero offsets of every load and store of the body, as the constant function. -/
theorem hz1 : (![0, 0] : Fin 2 → ℕ) = fun _ => 0 := by
  funext a; fin_cases a <;> rfl

set_option maxHeartbeats 1000000 in
/-- Where neither test holds (contraction coordinate 1 … 6) the body reads the two argument blocks and the scratch
    and stores the scratch plus the block product back; the bias row and the output block are not touched. -/
theorem bodyB1 (c : Dev nD) (i : grid1.Coords)
    (arg3 : Memref sig .tc .vmem S1024x256 .f32) (harg3 : arg3.IsWhole)
    (arg4 : Memref sig .tc .vmem S256x1024 .f32) (harg4 : arg4.IsWhole)
    (arg5 : Memref sig .tc .vmem S1x1024 .f32) (harg5 : arg5.IsWhole)
    (arg6 : Memref sig .tc .vmem S1024x1024 .f32) (harg6 : arg6.IsWhole)
    (arg7 : Memref sig .tc .vmem S1024x1024 .f32) (harg7 : arg7.IsWhole)
    (hcA : ¬condA1 i) (hcC : ¬condC1 i)
    (x : Vec F S1024x256 .f32) (w : Vec F S256x1024 .f32) (xs : Vec F S1024x1024 .f32)
    (E : Set ℕ) (K : PUnit → sProp 𝕄) :
    iprop(owns (c : Thread nD τ) arg3 fullShare x ∗ owns (c : Thread nD τ) arg4 fullShare w
        ∗ owns (c : Thread nD τ) arg7 fullShare xs
        ∗ (iprop(owns (c : Thread nD τ) arg3 fullShare x ∗ owns (c : Thread nD τ) arg4 fullShare w
            ∗ owns (c : Thread nD τ) arg7 fullShare (k1_pay2 x w xs)) -∗ K ⟨⟩))
      ⊢ wp frame (wpE (defs₀ (F := F)) Variants.none c none) E
          (cc1__matmul_kernel i arg3 harg3 arg4 harg4 arg5 harg5 arg6 harg6 arg7 harg7) K := by
  simp only [cc1__matmul_kernel_eq_skeleton]; unfold cc1__matmul_kernel_skel
  unfold owns
  iintro ⟨⟨%f3, %hf3, H3⟩, ⟨%f4, %hf4, H4⟩, ⟨%f7, %hf7, H7⟩, Hk⟩
  obtain rfl := harg3.eq_unread hf3; obtain rfl := harg4.eq_unread hf4; obtain rfl := harg7.eq_unread hf7
  sl_exec (disch := first | exact hcA | exact hcC)
  sl_step
  iapply Hk
  isplitl [H3]
  · iexists _; isplitr; · ipureintro; exact harg3.read_unread _
    iexact H3
  isplitl [H4]
  · iexists _; isplitr; · ipureintro; exact harg4.read_unread _
    iexact H4
  iexists _; isplitr
  swap; · iexact H7
  ipureintro
  rw [View.read_writes_eq_canon _ _ _ (fun y => ⟨_, List.mem_singleton_self _, View.mem_set_unit_zero hz1 inb_S1024x1024_S1024x1024_0_0 y⟩),
    View.canon_unit_zero hz1]
  simp only [View.readAt_eq_ld, harg3.read_unread, harg4.read_unread, harg7.read_unread,
    View.ld_unit_zero (S := S1024x256) hz1, View.ld_unit_zero (S := S256x1024) hz1, View.ld_unit_zero (S := S1024x1024) hz1]

set_option maxHeartbeats 1000000 in
/-- Where the first test holds (contraction coordinate 0) the body zeroes the scratch, whatever it held, reads the
    zero block back and stores it plus the block product; the bias row and the output block are not touched. -/
theorem bodyA1 (c : Dev nD) (i : grid1.Coords)
    (arg3 : Memref sig .tc .vmem S1024x256 .f32) (harg3 : arg3.IsWhole)
    (arg4 : Memref sig .tc .vmem S256x1024 .f32) (harg4 : arg4.IsWhole)
    (arg5 : Memref sig .tc .vmem S1x1024 .f32) (harg5 : arg5.IsWhole)
    (arg6 : Memref sig .tc .vmem S1024x1024 .f32) (harg6 : arg6.IsWhole)
    (arg7 : Memref sig .tc .vmem S1024x1024 .f32) (harg7 : arg7.IsWhole)
    (hcA : condA1 i) (hcC : ¬condC1 i)
    (x : Vec F S1024x256 .f32) (w : Vec F S256x1024 .f32)
    (E : Set ℕ) (K : PUnit → sProp 𝕄) :
    iprop(owns (c : Thread nD τ) arg3 fullShare x ∗ owns (c : Thread nD τ) arg4 fullShare w
        ∗ (∃ d, owns (c : Thread nD τ) arg7 fullShare d)
        ∗ (iprop(owns (c : Thread nD τ) arg3 fullShare x ∗ owns (c : Thread nD τ) arg4 fullShare w
            ∗ owns (c : Thread nD τ) arg7 fullShare (k1_pay2 x w (k1_pay1 (F := F)))) -∗ K ⟨⟩))
      ⊢ wp frame (wpE (defs₀ (F := F)) Variants.none c none) E
          (cc1__matmul_kernel i arg3 harg3 arg4 harg4 arg5 harg5 arg6 harg6 arg7 harg7) K := by
  simp only [cc1__matmul_kernel_eq_skeleton]; unfold cc1__matmul_kernel_skel
  unfold owns
  iintro ⟨⟨%f3, %hf3, H3⟩, ⟨%f4, %hf4, H4⟩, ⟨%d7, %f7, -, H7⟩, Hk⟩
  obtain rfl := harg3.eq_unread hf3; obtain rfl := harg4.eq_unread hf4
  sl_exec (disch := first | exact hcA | exact hcC)
  sl_step
  iapply Hk
  isplitl [H3]
  · iexists _; isplitr; · ipureintro; exact harg3.read_unread _
    iexact H3
  isplitl [H4]
  · iexists _; isplitr; · ipureintro; exact harg4.read_unread _
    iexact H4
  iexists _; isplitr
  swap; · iexact H7
  ipureintro
  sl_unfold_words
  rw [View.read_writes_eq_canon _ _ _ (fun y => ⟨_, List.mem_cons.mpr (Or.inl rfl), View.mem_set_unit_zero hz1 inb_S1024x1024_S1024x1024_0_0 y⟩),
    View.canon_cons_unit_zero (S := S1024x1024) hz1]
  simp only [View.readAt_eq_ld, harg3.read_unread, harg4.read_unread,
    View.ld_unit_zero (S := S1024x256) hz1, View.ld_unit_zero (S := S256x1024) hz1,
    View.readCov_unit_zero (S := S1024x1024) _ hz1]

set_option maxHeartbeats 1000000 in
/-- Where the second test holds (contraction coordinate 7) the body accumulates as elsewhere, then reads the bias
    row and the scratch just stored and stores their sum into the output block, whatever that held. -/
theorem bodyC1 (c : Dev nD) (i : grid1.Coords)
    (arg3 : Memref sig .tc .vmem S1024x256 .f32) (harg3 : arg3.IsWhole)
    (arg4 : Memref sig .tc .vmem S256x1024 .f32) (harg4 : arg4.IsWhole)
    (arg5 : Memref sig .tc .vmem S1x1024 .f32) (harg5 : arg5.IsWhole)
    (arg6 : Memref sig .tc .vmem S1024x1024 .f32) (harg6 : arg6.IsWhole)
    (arg7 : Memref sig .tc .vmem S1024x1024 .f32) (harg7 : arg7.IsWhole)
    (hcA : ¬condA1 i) (hcC : condC1 i)
    (x : Vec F S1024x256 .f32) (w : Vec F S256x1024 .f32) (b : Vec F S1x1024 .f32) (xs : Vec F S1024x1024 .f32)
    (E : Set ℕ) (K : PUnit → sProp 𝕄) :
    iprop(owns (c : Thread nD τ) arg3 fullShare x ∗ owns (c : Thread nD τ) arg4 fullShare w
        ∗ owns (c : Thread nD τ) arg5 fullShare b ∗ (∃ d, owns (c : Thread nD τ) arg6 fullShare d)
        ∗ owns (c : Thread nD τ) arg7 fullShare xs
        ∗ (iprop(owns (c : Thread nD τ) arg3 fullShare x ∗ owns (c : Thread nD τ) arg4 fullShare w
            ∗ owns (c : Thread nD τ) arg5 fullShare b
            ∗ owns (c : Thread nD τ) arg6 fullShare (k1_pay3 b (k1_pay2 x w xs))
            ∗ owns (c : Thread nD τ) arg7 fullShare (k1_pay2 x w xs)) -∗ K ⟨⟩))
      ⊢ wp frame (wpE (defs₀ (F := F)) Variants.none c none) E
          (cc1__matmul_kernel i arg3 harg3 arg4 harg4 arg5 harg5 arg6 harg6 arg7 harg7) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%d6, %f6, -, H6⟩, ⟨%f7, %hf7, H7⟩, Hk⟩
  obtain rfl := harg3.eq_unread hf3; obtain rfl := harg4.eq_unread hf4; obtain rfl := harg5.eq_unread hf5
  obtain rfl := harg7.eq_unread hf7
  sl_exec (disch := first | exact hcA | exact hcC)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    rw [View.read_writes_eq_canon _ _ _ (fun y => ⟨_, List.mem_singleton_self _, View.mem_set_unit_zero hz1 inb_S1024x1024_S1024x1024_0_0 y⟩),
      View.canon_unit_zero hz1]
    simp only [View.readAt_eq_ld, harg3.read_unread, harg4.read_unread, harg5.read_unread, harg7.read_unread,
      View.ld_unit_zero (S := S1024x256) hz1, View.ld_unit_zero (S := S256x1024) hz1,
      View.ld_unit_zero (S := S1x1024) hz1, View.ld_unit_zero (S := S1024x1024) hz1,
      View.readCov_unit_zero (S := S1024x1024) _ hz1]
  iexists _; isplitr
  swap; · iexact H7
  ipureintro
  sl_unfold_words
  rw [View.read_writes_eq_canon _ _ _ (fun y => ⟨_, List.mem_singleton_self _, View.mem_set_unit_zero hz1 inb_S1024x1024_S1024x1024_0_0 y⟩),
    View.canon_unit_zero hz1]
  simp only [View.readAt_eq_ld, harg3.read_unread, harg4.read_unread, harg7.read_unread,
    View.ld_unit_zero (S := S1024x256) hz1, View.ld_unit_zero (S := S256x1024) hz1, View.ld_unit_zero (S := S1024x1024) hz1]

/-! ## The body obligation, at a generic point -/

/-- Each window's current staging memref at point `t`, as the pipeline passes it to the body, and its wholeness. -/
abbrev ms1_0 (t : Fin cfg1.N) : Memref sig .tc .vmem S1024x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)

/-- What the body is called with at point `t`: the invariant, what the core owes, and the four current staging
    buffers at what they hold there, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

/-- At a point live for a window the body owes that window's buffer at what it leaves there. -/
theorem leaves1_live (c : Dev nD) (w : Fin cfg1.W) (t : Fin cfg1.N) (hi : cfg1.idle w (cfg1.grid.coords t) = false) :
    (dat1 V c).leavesExact w t
      = owns (c : Thread nD τ) ((cfg1.win w).stage (cfg1.slots t w)) fullShare ((dat1 V c).after w t) := by
  unfold Dat.leavesExact; rw [hi]

set_option maxHeartbeats 4800000 in
/-- The body at any point. The input buffers hold their blocks; the position modulo 8 says which of the three
    cases the point is in; the invariant hands the body the scratch at what the point before left (at anything
    before the first point) and takes it back at this point's contents, which by the recursion `sc1` is the zero block
    plus the product where the position is ≡ 0 and the previous contents plus the product elsewhere; the output
    buffer is handed back as found except where the position is ≡ 7, where it holds the scratch plus the bias row;
    the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [leaves1_live V c 0 t (live1_0 _), after1_0, leaves1_live V c 1 t (live1_1 _), after1_1,
    leaves1_live V c 2 t (live1_2 _), after1_2]
  by_cases h0 : t.val % 8 = 0
  · have h7 : ¬t.val % 8 = 7 := by omega
    rw [Dat.leavesExact_idle (dat1 V c) 3 t (idle1_3 t h7) (noFlush1_3 t h7), sc1_reset V c t h0]
    by_cases hz : t.val = 0
    · rw [PhiS1_castSucc V c t, PhiS1_zero V c _ _ hz, PhiA1_eq]
      iintro ⟨⟨⟨Hb0, Hb1, Hb2, HS⟩, Hg⟩, Ho, ⟨%d0, H0⟩, ⟨%d1, H1⟩, ⟨%d2, H2⟩, ⟨%d3, H3⟩⟩
      iapply (bodyA1 c (grid1.coords t) (ms1_0 t) (hs1_0 t) (ms1_1 t) (hs1_1 t) (ms1_2 t) (hs1_2 t) (ms1_3 t) (hs1_3 t) scM1 (Memref.isWhole_whole _)
        ((hcondA1 t).mpr h0) (fun h => h7 ((hcondC1 t).mp h)) (xblk1 V c t) (wblk1 V c t) Set.univ _)
      isplitl [H0]; · iexact H0
      isplitl [H1]; · iexact H1
      isplitl [HS]; · iexact HS
      iintro ⟨H0, H1, HS⟩
      isplitl [Hb0 Hb1 Hb2 HS Hg]
      · isplitl [Hb0 Hb1 Hb2 HS]
        · isplitl [Hb0]; · iexact Hb0
          isplitl [Hb1]; · iexact Hb1
          isplitl [Hb2]; · iexact Hb2
          iexact HS
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨Hb0, Hb1, Hb2, HS⟩, Hg⟩, Ho, ⟨%d0, H0⟩, ⟨%d1, H1⟩, ⟨%d2, H2⟩, ⟨%d3, H3⟩⟩
      iapply (bodyA1 c (grid1.coords t) (ms1_0 t) (hs1_0 t) (ms1_1 t) (hs1_1 t) (ms1_2 t) (hs1_2 t) (ms1_3 t) (hs1_3 t) scM1 (Memref.isWhole_whole _)
        ((hcondA1 t).mpr h0) (fun h => h7 ((hcondC1 t).mp h)) (xblk1 V c t) (wblk1 V c t) Set.univ _)
      isplitl [H0]; · iexact H0
      isplitl [H1]; · iexact H1
      isplitl [HS]; · iexists _; iexact HS
      iintro ⟨H0, H1, HS⟩
      isplitl [Hb0 Hb1 Hb2 HS Hg]
      · isplitl [Hb0 Hb1 Hb2 HS]
        · isplitl [Hb0]; · iexact Hb0
          isplitl [Hb1]; · iexact Hb1
          isplitl [Hb2]; · iexact Hb2
          iexact HS
        iexact Hg
      isplitl [Ho]; · iexact Ho
      isplitl [H0]; · iexact H0
      isplitl [H1]; · iexact H1
      isplitl [H2]; · iexact H2
      iexists _; iexact H3
  · have hz : t.val ≠ 0 := fun h => h0 (by rw [h])
    rw [PhiS1_castSucc V c t, PhiS1_pos V c _ _ hz, sc1_step V c t h0]
    by_cases h7 : t.val % 8 = 7
    · rw [leaves1_live V c 3 t (live1_3 t h7), after1_3]
      unfold out3
      rw [sc1_step V c t h0]
      iintro ⟨⟨⟨Hb0, Hb1, Hb2, HS⟩, Hg⟩, Ho, ⟨%d0, H0⟩, ⟨%d1, H1⟩, ⟨%d2, H2⟩, ⟨%d3, H3⟩⟩
      iapply (bodyC1 c (grid1.coords t) (ms1_0 t) (hs1_0 t) (ms1_1 t) (hs1_1 t) (ms1_2 t) (hs1_2 t) (ms1_3 t) (hs1_3 t) scM1 (Memref.isWhole_whole _)
        (fun h => h0 ((hcondA1 t).mp h)) ((hcondC1 t).mpr h7) (xblk1 V c t) (wblk1 V c t) (bblk1 V c t)
        (sc1 V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [Hb0 Hb1 Hb2 HS Hg]
      · isplitl [Hb0 Hb1 Hb2 HS]
        · isplitl [Hb0]; · iexact Hb0
          isplitl [Hb1]; · iexact Hb1
          isplitl [Hb2]; · iexact Hb2
          iexact HS
        iexact Hg
      isplitl [Ho]; · iexact Ho
      isplitl [H0]; · iexact H0
      isplitl [H1]; · iexact H1
      isplitl [H2]; · iexact H2
      iexact H3
    · rw [Dat.leavesExact_idle (dat1 V c) 3 t (idle1_3 t h7) (noFlush1_3 t h7)]
      iintro ⟨⟨⟨Hb0, Hb1, Hb2, HS⟩, Hg⟩, Ho, ⟨%d0, H0⟩, ⟨%d1, H1⟩, ⟨%d2, H2⟩, ⟨%d3, H3⟩⟩
      iapply (bodyB1 c (grid1.coords t) (ms1_0 t) (hs1_0 t) (ms1_1 t) (hs1_1 t) (ms1_2 t) (hs1_2 t) (ms1_3 t) (hs1_3 t) scM1 (Memref.isWhole_whole _)
        (fun h => h0 ((hcondA1 t).mp h)) (fun h => h7 ((hcondC1 t).mp h)) (xblk1 V c t) (wblk1 V c t)
        (sc1 V c (t.val - 1) (Nat.lt_of_le_of_lt (Nat.sub_le _ _) t.isLt)) Set.univ _)
      isplitl [H0]; · iexact H0
      isplitl [H1]; · iexact H1
      isplitl [HS]; · iexact HS
      iintro ⟨H0, H1, HS⟩
      isplitl [Hb0 Hb1 Hb2 HS Hg]
      · isplitl [Hb0 Hb1 Hb2 HS]
        · isplitl [Hb0]; · iexact Hb0
          isplitl [Hb1]; · iexact Hb1
          isplitl [Hb2]; · iexact Hb2
          iexact HS
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := by
  intro t
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Pipeline.ΦA spec1 c from PhiS1_zero V c 0 (Nat.zero_le _) rfl]

/-- After the last point the invariant gives the class's back: the scratch's named contents are forgotten. -/
theorem hout1 (c : Dev nD) : (dat1 V c).Φ (Fin.last cfg1.N) ⊢ Pipeline.ΦA spec1 c := by
  have hl : (Fin.last cfg1.N).val ≠ 0 := by rw [Fin.val_last]; have : cfg1.N = 128 := N_1; omega
  rw [show (dat1 V c).Φ (Fin.last cfg1.N) = PhiS1 V c (Fin.last cfg1.N).val (Nat.le_of_lt_succ (Fin.last cfg1.N).isLt) from rfl,
    PhiS1_pos V c _ _ hl, PhiA1_eq]
  iintro ⟨⟨Hb0, Hb1, Hb2, HS⟩, Hg⟩
  isplitl [Hb0 Hb1 Hb2 HS]
  · isplitl [Hb0]; · iexact Hb0
    isplitl [Hb1]; · iexact Hb1
    isplitl [Hb2]; · iexact Hb2
    iexists _; iexact HS
  iexact Hg

end Cert.Kernel.Hand

end
-- ==== Proof.Kernel.Run.lean ====
/-
  The run of the kernel program: its two regions in order, from the launch to the return.
  The contents of the unscoped buffers at each boundary are a fold from the launch memory: region 0 changes only
  its output array (the 1×2048 row), region 1 only its own (the 8192×2048 result), each to what the pipeline's
  write-backs leave (`Dat.arrAt … N`); the three arguments are never written. Every weakly fair execution terminates
  with every unscoped buffer at the last boundary's contents; the frame claim and the value of the result are read
  off that.
-/
import proofs.«169282_j52450140619301_1_alg».proof.Proof.Kernel.Bias
import proofs.«169282_j52450140619301_1_alg».proof.Proof.Kernel.Matmul

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (region 0's entry: no host operation comes before it). -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b

/-- At region 0's exit (region 1's entry): its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit (the return). -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ## What the boundaries hold at the buffers the claims read -/

/-- Region 0 reads the third argument through an input window and never writes it. -/
theorem V0_main_arg2 (c : Dev nD) : V0 m ρ c main_arg2 = m ((c : Thread nD τ).loc main_arg2) := rfl
/-- Region 1 finds the first two arguments as launched: region 0 bypasses them. -/
theorem V1_main_arg0 (c : Dev nD) : V1 m ρ c main_arg0 = m ((c : Thread nD τ).loc main_arg0) :=
  W1_of_ne m ρ c main_arg0 (by decide)
theorem V1_main_arg1 (c : Dev nD) : V1 m ρ c main_arg1 = m ((c : Thread nD τ).loc main_arg1) :=
  W1_of_ne m ρ c main_arg1 (by decide)
/-- and the bias row at what region 0's write-back left. -/
theorem V1_main_v0 (c : Dev nD) : V1 m ρ c main_v0 = (dat0 (V0 m ρ) c).arrAt 1 cfg0.N :=
  W1_arr m ρ c 1
/-- At the return the result array holds what region 1's write-backs left, -/
theorem W2_main_v1 (c : Dev nD) : W2 m ρ c (Proc.devRef .tc main_v1) = (dat1 (V1 m ρ) c).arrAt 3 cfg1.N :=
  W2_arr m ρ c 3
/-- and each argument its launch contents. -/
theorem W2_main_arg0 (c : Dev nD) : W2 m ρ c (Proc.devRef .tc main_arg0) = m ((c : Thread nD τ).loc main_arg0) :=
  calc W2 m ρ c (Proc.devRef .tc main_arg0)
    _ = (dat1 (V1 m ρ) c).arrAt 0 cfg1.N := W2_arr m ρ c 0
    _ = V1 m ρ c main_arg0 := ((dat1 (V1 m ρ) c).arrAt_in 0 rfl _).trans (A_eq1 (V1 m ρ) c 0)
    _ = m ((c : Thread nD τ).loc main_arg0) := V1_main_arg0 m ρ c
theorem W2_main_arg1 (c : Dev nD) : W2 m ρ c (Proc.devRef .tc main_arg1) = m ((c : Thread nD τ).loc main_arg1) :=
  calc W2 m ρ c (Proc.devRef .tc main_arg1)
    _ = (dat1 (V1 m ρ) c).arrAt 1 cfg1.N := W2_arr m ρ c 1
    _ = V1 m ρ c main_arg1 := ((dat1 (V1 m ρ) c).arrAt_in 1 rfl _).trans (A_eq1 (V1 m ρ) c 1)
    _ = m ((c : Thread nD τ).loc main_arg1) := V1_main_arg1 m ρ c
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = (dat0 (V0 m ρ) c).arrAt 0 cfg0.N := W1_arr m ρ c 0
    _ = V0 m ρ c main_arg2 := ((dat0 (V0 m ρ) c).arrAt_in 0 rfl _).trans (A_eq0 (V0 m ρ) c 0)
    _ = m ((c : Thread nD τ).loc main_arg2) := rfl

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through both regions: the generator register at some state, nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W2 m ρ c) ∗ ∃ r, prngReg c r)

/-! ## The regions as segments -/

set_option backward.isDefEq.respectTransparency.types false in
/-- Region 0 over the thread state: entered from every unscoped buffer at the launch contents, left at `W1`. Its
    arrays are split out of the unscoped buffers and put back at the exit contents; the generator register goes into
    the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W1`, left at `W2`. The region's
    invariant takes the scoped buffers it does not stage — its scratch accumulator among them — and the generator
    register in (`hin1`) and gives them back after the last point with the scratch's contents forgotten (`hout1`). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec1 c ⊢ (pdats m ρ 1 c).Φ 0 from hin1 (V1 m ρ) c)
    unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

/-- @main's two segments in order. -/
abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- THE RUN. From any memory with zero counters, every weakly fair execution of @main on the TensorCores terminates,
    nothing faulting, and every final state has every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c)⟩) (run_main m ρ)

/-- THE VALUE RUN: the same run with the result array named: what region 1's write-backs leave in it, region 1
    entered at what region 0 left. -/
theorem run_value : θ_run defs (onTc (τ := τ) (main (F := F))) ⟨m, fun _ => 0, ρ⟩ (fun r => ∀ c : Dev nD,
      r.2.mem ((c.tc : Thread nD τ).loc main_v1) = (dat1 (V1 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v1 (by decide))).trans (W2_main_v1 m ρ c),
     (h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c)⟩) (run_main m ρ)

end Cert.Kernel.Hand

end
-- ==== Proof.KernelIdeal.BiasDefs.lean ====
/-
  Region 0 of the kernel program (the column sums of the third argument), at the contents `V` the region is
  entered with: what the output window's one staging buffer holds after each grid point, and the pipeline's
  proof data. The grid has 4 points; point `n` stages rows 512·n … 512·n+511 of the array
  and the 1×2048 output block is kept in its staging buffer across the points and written back after the last.
-/
import proofs.«169282_j52450140619301_1_alg».proof.Proof.Gen.KernelIdeal.Launch
import proofs.«169282_j52450140619301_1_alg».proof.Proof.Gen.KernelIdeal.Skeleton
import proofs.«169282_j52450140619301_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of the argument staged at point `t`, at their literal type. -/
abbrev rows0 (c : Dev nD) (t : Fin cfg0.N) : Vec F S512x2048 .f32 := iblk0 V c 0 t

/-- THE ACCUMULATION: what the output's staging buffer holds after the body at point `n`: at the first point the
    zero row plus the column sums of the staged rows, afterwards what the point before left plus them. -/
def acc0 (c : Dev nD) : (n : ℕ) → n < cfg0.N → Vec F S1x2048 .f32
  | 0, hn => k0_pay2 (k0_pay1 (F := F)) (rows0 V c ⟨0, hn⟩)
  | n + 1, hn => k0_pay2 (acc0 c n (Nat.lt_of_succ_lt hn)) (rows0 V c ⟨n + 1, hn⟩)

theorem acc0_zero (c : Dev nD) (t : Fin cfg0.N) (h : t.val = 0) :
    acc0 V c t.val t.isLt = k0_pay2 (k0_pay1 (F := F)) (rows0 V c t) := by
  obtain ⟨n, hn⟩ := t; subst h; rfl

theorem acc0_pos (c : Dev nD) (t : Fin cfg0.N) (h : t.val ≠ 0) :
    acc0 V c t.val t.isLt = k0_pay2 (acc0 V c (t.val - 1) (Nat.lt_of_le_of_lt (Nat.sub_le _ _) t.isLt)) (rows0 V c t) := by
  obtain ⟨n, hn⟩ := t
  cases n with
  | zero => exact absurd rfl h
  | succ n => rfl

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => acc0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = acc0 V c t.val t.isLt := by dsimp only [dat0]

end Cert.KernelIdeal.Hand

end
-- ==== Proof.KernelIdeal.Bias.lean ====
/-
  Region 0 of the kernel program (the column sums of the third argument), at the contents `V` the region is
  entered with: the body obligation, over the accumulation and the proof data of BiasDefs. The body has two cases:
  at the first point it stores the zero row into the output block and then adds the staged rows' column sums to it;
  at the later points it adds them to what the point before left (the block is not written back in between).
-/
import proofs.«169282_j52450140619301_1_alg».proof.Proof.Gen.KernelIdeal.Launch
import proofs.«169282_j52450140619301_1_alg».proof.Proof.Gen.KernelIdeal.Skeleton
import proofs.«169282_j52450140619301_1_alg».proof.Proof.Gen.KernelIdeal.Points
import proofs.«169282_j52450140619301_1_alg».proof.Proof.KernelIdeal.BiasDefs
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The guard of the body's conditional -/

/-- The body resets the output block exactly when this holds: the first grid coordinate, as a 32-bit word, compares
    equal to zero (the conditional's scalar chain, from the coordinates). -/
abbrev isFirst0 (i : grid0.Coords) : Prop :=
  Scalar.cmpi .ne (Scalar.extui (Scalar.cmpi .eq (BitVec.ofNat 32 (i 0).val) 0#32)) 0#32 = 1#1

/-- Over the four points of the grid the guard holds at point 0 and nowhere else. -/
theorem isFirst0_iff : ∀ t : Fin cfg0.N, isFirst0 (grid0.coords t) ↔ t.val = 0 :=
  (by decide +kernel : ∀ t : Fin grid0.N, isFirst0 (grid0.coords t) ↔ t.val = 0)

/-! ## What the staging buffers hold when the body is entered -/

/-- The input window is staged afresh at every point and the body only reads it: on entry its buffer holds the
    point's block of the array. -/
theorem before0_0 (c : Dev nD) (t : Fin cfg0.N) (d) : (dat0 V c).before 0 t d = iblk0 V c 0 t := by
  refine ((dat0 V c).before_in_eq_fetched 0 rfl (fun _ => rfl) (fun _ _ _ => rfl) (fun s => ?_) t d).trans ?_
  · rw [after0_0]; unfold Dat.blockOf iblk0; rw [A_eq0]; try rfl
  · unfold Dat.fetched Dat.blockOf iblk0; rw [A_eq0]; try rfl

/-- The output window is written back after the last point only, so at a later point its buffer still holds the
    running sum the point before left there. -/
theorem before0_1_later (c : Dev nD) (t : Fin cfg0.N) (h : t.val ≠ 0) (d) :
    (dat0 V c).before 1 t d = acc0 V c (t.val - 1) (Nat.lt_of_le_of_lt (Nat.sub_le _ _) t.isLt) := by
  have hN : t.val < 4 := lt_of_lt_of_eq t.isLt (show cfg0.N = 4 from N_0)
  have hnf : (cfg0.win 1).flush ⟨t.val - 1, Nat.lt_of_le_of_lt (Nat.sub_le _ _) t.isLt⟩ = false :=
    Bool.eq_false_iff.mpr fun hf => by
      have := (flush0_1 _).mp hf
      dsimp only at this
      omega
  rw [Dat.before_out_kept _ 1 rfl t h hnf (fun _ => rfl) (fun _ _ => rfl)]
  dsimp only [dat0]

/-! ## The body on whole staging buffers

Every load and store of the body goes through the rectangle that is the whole staging buffer: all of its sizes, at
offsets zero. A load through it reads the contents; a store through it, being the last, decides the contents. -/

/-- The offsets of the body's accesses to the output buffer are zero on both axes. -/
theorem offs_out0 : (![0, 0] : Fin S1x2048.rank → Nat) = fun _ => 0 := by
  funext a; fin_cases a <;> rfl

/-- So are those of its access to the input buffer. -/
theorem offs_in0 : (![0, 0] : Fin S512x2048.rank → Nat) = fun _ => 0 := by
  funext a; fin_cases a <;> rfl

set_option maxHeartbeats 1000000 in
/-- AT THE FIRST POINT the guard holds: the body stores the zero row over whatever the output buffer held, reads it
    back, adds the column sums of the staged rows and stores the result. The input buffer is only read. -/
theorem run0_first (c : Dev nD) (E : Set ℕ) (i : grid0.Coords) (arg1 : Memref sig .tc .vmem S512x2048 .f32) (harg1 : arg1.IsWhole)
    (arg2 : Memref sig .tc .vmem S1x2048 .f32) (harg2 : arg2.IsWhole) (hc0 : isFirst0 i)
    (x0 : Vec F S512x2048 .f32) (K : PUnit → sProp 𝕄) :
    iprop(owns (c : Thread nD τ) arg1 fullShare x0 ∗ (∃ d, owns (c : Thread nD τ) arg2 fullShare d)
        ∗ (iprop(owns (c : Thread nD τ) arg1 fullShare x0
            ∗ owns (c : Thread nD τ) arg2 fullShare (k0_pay2 (k0_pay1 (F := F)) x0)) -∗ K ⟨⟩))
      ⊢ wp frame (wpE (defs₀ (F := F)) Variants.none c none) E (cc0__bias_kernel i arg1 harg1 arg2 harg2) K := by
  simp only [cc0__bias_kernel_eq_skeleton]; unfold cc0__bias_kernel_skel
  unfold owns
  iintro ⟨⟨%f0, %hf0, H0⟩, ⟨%d1, %f1, -, H1⟩, Hk⟩
  obtain rfl := harg1.eq_unread hf0
  sl_exec (disch := first | exact hc0)
  sl_step
  iapply Hk
  isplitl [H0]
  · iexists _; isplitr
    · ipureintro; exact harg1.read_unread _
    · iexact H0
  iexists _; isplitr
  swap
  · iexact H1
  ipureintro
  -- the last store is through the whole buffer, so the buffer reads as that store's payload
  rw [View.read_writes_eq_canon _ _ _ (fun y => ⟨_, List.mem_cons_self, View.mem_set_unit_zero offs_out0 inb_S1x2048_S1x2048_0_0 y⟩)]
  sl_unfold_words
  rw [View.canon_cons_unit_zero (S := S1x2048) offs_out0]
  -- the load between the two stores reads back the zero row the first of them left
  simp only [View.readCov_unit_zero (S := S1x2048) _ offs_out0, View.readAt_eq_ld, harg1.read_unread,
    View.ld_unit_zero (S := S512x2048) offs_in0]

set_option maxHeartbeats 1000000 in
/-- AT A LATER POINT the guard fails: the body reads the running sum out of the output buffer, adds the column sums
    of the staged rows and stores the result. -/
theorem run0_later (c : Dev nD) (E : Set ℕ) (i : grid0.Coords) (arg1 : Memref sig .tc .vmem S512x2048 .f32) (harg1 : arg1.IsWhole)
    (arg2 : Memref sig .tc .vmem S1x2048 .f32) (harg2 : arg2.IsWhole) (hc0 : ¬isFirst0 i)
    (x0 : Vec F S512x2048 .f32) (xo : Vec F S1x2048 .f32) (K : PUnit → sProp 𝕄) :
    iprop(owns (c : Thread nD τ) arg1 fullShare x0 ∗ owns (c : Thread nD τ) arg2 fullShare xo
        ∗ (iprop(owns (c : Thread nD τ) arg1 fullShare x0
            ∗ owns (c : Thread nD τ) arg2 fullShare (k0_pay2 xo x0)) -∗ K ⟨⟩))
      ⊢ wp frame (wpE (defs₀ (F := F)) Variants.none c none) E (cc0__bias_kernel i arg1 harg1 arg2 harg2) K := by
  simp only [cc0__bias_kernel_eq_skeleton]; unfold cc0__bias_kernel_skel
  unfold owns
  iintro ⟨⟨%f0, %hf0, H0⟩, ⟨%f1, %hf1, H1⟩, Hk⟩
  obtain rfl := harg1.eq_unread hf0; obtain rfl := harg2.eq_unread hf1
  sl_exec (disch := first | exact hc0)
  sl_step
  iapply Hk
  isplitl [H0]
  · iexists _; isplitr
    · ipureintro; exact harg1.read_unread _
    · iexact H0
  iexists _; isplitr
  swap
  · iexact H1
  ipureintro
  -- the one store is through the whole buffer; both loads before it read the buffers' contents
  rw [View.read_writes_eq_canon _ _ _ (fun y => ⟨_, List.mem_singleton_self _, View.mem_set_unit_zero offs_out0 inb_S1x2048_S1x2048_0_0 y⟩)]
  sl_unfold_words
  rw [View.canon_unit_zero (S := S1x2048) offs_out0]
  simp only [View.readAt_eq_ld, harg1.read_unread, harg2.read_unread,
    View.ld_unit_zero (S := S1x2048) offs_out0, View.ld_unit_zero (S := S512x2048) offs_in0]

/-! ## The body obligation, at a generic point -/

/-- What the pipeline calls the body with at point `t`: the invariant, what the core owes, and each window's current
    staging buffer at what it holds on entry; -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it must return: the same with each buffer at what the proof data say the body leaves. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

set_option maxHeartbeats 1000000 in
/-- The body at any point. The input buffer holds the point's rows. At point 0 the guard holds and the output buffer,
    whatever it held, ends at the zero row plus the rows' column sums, which is the accumulation's first value; at a
    later point the guard fails, the output buffer holds the accumulation's value at the point before, and it ends at
    that plus the rows' column sums, which is the accumulation's next value. The invariant and what the core owes are
    not touched. -/
theorem sound_body0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0]
  rw [show (dat0 V c).Φ t.succ = (dat0 V c).Φ t.castSucc from rfl,
    show (dat0 V c).owesAt () t.succ = (dat0 V c).owesAt () t.castSucc from rfl,
    after0_0, after0_1]
  by_cases h0 : t.val = 0
  · rw [acc0_zero V c t h0]
    iintro ⟨HΦ, Ho, ⟨%d0, H0⟩, ⟨%d1, H1⟩⟩
    iapply (run0_first c Set.univ (grid0.coords t) _ _ _ _ ((isFirst0_iff t).mpr h0) (rows0 V c t) _)
    isplitl [H0]
    · iexact H0
    isplitl [H1]
    · iexists _; iexact H1
    iintro ⟨H0, H1⟩
    isplitl [HΦ]
    · iexact HΦ
    isplitl [Ho]
    · iexact Ho
    isplitl [H0]
    · iexact H0
    iexact H1
  · rw [acc0_pos V c t h0]
    simp only [before0_1_later V c t h0]
    iintro ⟨HΦ, Ho, ⟨%d0, H0⟩, ⟨%d1, H1⟩⟩
    iapply (run0_later c Set.univ (grid0.coords t) _ _ _ _ (fun h => h0 ((isFirst0_iff t).mp h)) (rows0 V c t)
      (acc0 V c (t.val - 1) (Nat.lt_of_le_of_lt (Nat.sub_le _ _) t.isLt)) _)
    isplitl [H0]
    · iexact H0
    isplitl [H1]
    · iexact H1
    iintro ⟨H0, H1⟩
    isplitl [HΦ]
    · iexact HΦ
    isplitl [Ho]
    · iexact Ho
    isplitl [H0]
    · iexact H0
    iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.MatmulDefs.lean ====
/-
  Region 1 of the kernel program (tanh of the first argument times the second, plus the bias row), at the contents
  `V` the region is entered with. The grid is 8 × 2 × 8, the last axis the contraction's: point (i, j, k) stages a
  1024×256 block of the first argument, a 256×1024 block of the second and columns 1024·j … of the bias row, and
  adds the block product into a 1024×1024 scratch accumulator that is zeroed at k = 0 and, at k = 7, stored with the
  bias row added into the output block (i, j). Here: what the scratch holds after each point, the region's invariant
  carrying it and the proof data.
-/
import proofs.«169282_j52450140619301_1_alg».proof.Proof.Gen.KernelIdeal.Launch
import proofs.«169282_j52450140619301_1_alg».proof.Proof.Gen.KernelIdeal.Skeleton
import proofs.«169282_j52450140619301_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The three input blocks staged at point `t`, at their literal types. -/
abbrev xblk1 (c : Dev nD) (t : Fin cfg1.N) : Vec F S1024x256 .f32 := iblk1 V c 0 t
abbrev wblk1 (c : Dev nD) (t : Fin cfg1.N) : Vec F S256x1024 .f32 := iblk1 V c 1 t
abbrev bblk1 (c : Dev nD) (t : Fin cfg1.N) : Vec F S1x1024 .f32 := iblk1 V c 2 t

/-- The scratch accumulator, a whole scoped buffer of the kernel's own. -/
abbrev scM1 : Memref sig .tc .vmem S1024x1024 .f32 := Memref.whole cc1_scratch0

/-- THE ACCUMULATION: what the scratch holds after the body at point `n`: where the contraction coordinate is 0
    (`n % 8 = 0`) the zero block plus the point's block product, elsewhere what the point before left plus it. -/
def sc1 (c : Dev nD) : (n : ℕ) → n < cfg1.N → Vec F S1024x1024 .f32
  | 0, hn => k1_pay2 (xblk1 V c ⟨0, hn⟩) (wblk1 V c ⟨0, hn⟩) (k1_pay1 (F := F))
  | n + 1, hn =>
    if (n + 1) % 8 = 0 then k1_pay2 (xblk1 V c ⟨n + 1, hn⟩) (wblk1 V c ⟨n + 1, hn⟩) (k1_pay1 (F := F))
    else k1_pay2 (xblk1 V c ⟨n + 1, hn⟩) (wblk1 V c ⟨n + 1, hn⟩) (sc1 c n (Nat.lt_of_succ_lt hn))

theorem sc1_reset (c : Dev nD) (t : Fin cfg1.N) (h : t.val % 8 = 0) :
    sc1 V c t.val t.isLt = k1_pay2 (xblk1 V c t) (wblk1 V c t) (k1_pay1 (F := F)) := by
  obtain ⟨n, hn⟩ := t
  cases n with
  | zero => rfl
  | succ n => exact if_pos h

theorem sc1_step (c : Dev nD) (t : Fin cfg1.N) (h : ¬t.val % 8 = 0) :
    sc1 V c t.val t.isLt = k1_pay2 (xblk1 V c t) (wblk1 V c t) (sc1 V c (t.val - 1) (Nat.lt_of_le_of_lt (Nat.sub_le _ _) t.isLt)) := by
  obtain ⟨n, hn⟩ := t
  cases n with
  | zero => exact absurd (Nat.zero_mod _) h
  | succ n => exact if_neg h

/-- What the output window's staging buffer holds after the body where the contraction coordinate is 7 (the only
    points that store it and the only ones after which it is written back): the scratch plus the bias row. -/
def out3 (c : Dev nD) (t : Fin cfg1.N) : Vec F S1024x1024 .f32 :=
  k1_pay3 (bblk1 V c t) (sc1 V c t.val t.isLt)

/-- The region's invariant before position `n`: before the first point the class's (every scoped buffer that is no
    staging buffer of this region at anything, the generator register at some state); afterwards the same with the
    scratch at what the point before left in it. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ owns (c : Thread nD τ) scM1 fullShare (sc1 V c n hn)) ∗ (∃ r, prngReg c r))

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out3 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out3 V c t := by dsimp only [dat1]

end Cert.KernelIdeal.Hand

end
-- ==== Proof.KernelIdeal.Matmul.lean ====
/-
  Region 1 of the kernel program (tanh of the first argument times the second, plus the bias row), at the contents
  `V` the region is entered with. The grid is 8 × 2 × 8, the last axis the contraction's: point (i, j, k) stages a
  1024×256 block of the first argument, a 256×1024 block of the second and columns 1024·j … of the bias row, and
  adds the block product into a 1024×1024 scratch accumulator that is zeroed at k = 0 and, at k = 7, stored with the
  bias row added into the output block (i, j). Here, over the accumulation, the invariant and the proof data of
  MatmulDefs: the body's triple in each of its three cases, the body obligation at every point, and the invariant's
  two ends.
-/
import proofs.«169282_j52450140619301_1_alg».proof.Proof.Gen.KernelIdeal.Launch
import proofs.«169282_j52450140619301_1_alg».proof.Proof.Gen.KernelIdeal.Skeleton
import proofs.«169282_j52450140619301_1_alg».proof.Proof.Gen.KernelIdeal.Points
import proofs.«169282_j52450140619301_1_alg».proof.Proof.KernelIdeal.MatmulDefs
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two conditionals, in closed form over the grid -/

/-- The first conditional's test, from the grid coordinates: the contraction coordinate is 0 (where the scratch
    is zeroed before the block product is added). -/
abbrev condA1 (i : grid1.Coords) : Prop :=
  (Scalar.cmpi .ne (Scalar.extui (Scalar.cmpi .eq (BitVec.ofNat 32 (i 2).val) 0#32)) 0#32) = 1#1
/-- The contraction coordinate is the point's position modulo 8: the test holds at the positions ≡ 0. -/
theorem hcondA1 : ∀ t : Fin cfg1.N, condA1 (grid1.coords t) ↔ t.val % 8 = 0 :=
  (by decide +kernel : ∀ t : Fin grid1.N, condA1 (grid1.coords t) ↔ t.val % 8 = 0)

/-- The second conditional's test: the contraction coordinate is 7 (where the output block is stored). -/
abbrev condC1 (i : grid1.Coords) : Prop := k1_cond2 i = 1#1
/-- It holds at the positions ≡ 7 (mod 8). -/
theorem hcondC1 : ∀ t : Fin cfg1.N, condC1 (grid1.coords t) ↔ t.val % 8 = 7 :=
  (by decide +kernel : ∀ t : Fin grid1.N, condC1 (grid1.coords t) ↔ t.val % 8 = 7)

/-! ## Where the windows are idle -/

/-- The three input windows are never idle. -/
theorem live1_0 : ∀ i : grid1.Coords, cfg1.idle 0 i = false := fun _ => rfl
theorem live1_1 : ∀ i : grid1.Coords, cfg1.idle 1 i = false := fun _ => rfl
theorem live1_2 : ∀ i : grid1.Coords, cfg1.idle 2 i = false := fun _ => rfl
/-- The output window is idle exactly where the second test fails: the body stores nothing into it there. -/
theorem idle1_3 : ∀ t : Fin cfg1.N, ¬t.val % 8 = 7 → cfg1.idle 3 (grid1.coords t) = true :=
  (by decide +kernel : ∀ t : Fin grid1.N, ¬t.val % 8 = 7 → cfg1.idle 3 (grid1.coords t) = true)
theorem live1_3 : ∀ t : Fin cfg1.N, t.val % 8 = 7 → cfg1.idle 3 (grid1.coords t) = false :=
  (by decide +kernel : ∀ t : Fin grid1.N, t.val % 8 = 7 → cfg1.idle 3 (grid1.coords t) = false)
/-- Nor is its block written back there (it is written back at the positions ≡ 7 only). -/
theorem noFlush1_3 (t : Fin cfg1.N) (h : ¬t.val % 8 = 7) : (cfg1.win 3).flush t = false :=
  Bool.eq_false_iff.mpr fun hf => h ((flush1_3 t).mp hf)

/-! ## The input windows hold their blocks at every point -/

/-- The first argument's block: fetched at every point. -/
theorem before1_0 (c : Dev nD) (t : Fin cfg1.N) (d) : (dat1 V c).before 0 t d = iblk1 V c 0 t :=
  ((dat1 V c).before_in_eq_fetched 0 rfl live1_0 (fun _ _ _ => rfl)
    (fun t => by rw [after1_0]; unfold Dat.blockOf iblk1; rw [A_eq1]; try rfl) t d).trans
    (by unfold Dat.fetched Dat.blockOf iblk1; rw [A_eq1]; try rfl)
/-- The second argument's block: fetched at every point. -/
theorem before1_1 (c : Dev nD) (t : Fin cfg1.N) (d) : (dat1 V c).before 1 t d = iblk1 V c 1 t :=
  ((dat1 V c).before_in_eq_fetched 1 rfl live1_1 (fun _ _ _ => rfl)
    (fun t => by rw [after1_1]; unfold Dat.blockOf iblk1; rw [A_eq1]; try rfl) t d).trans
    (by unfold Dat.fetched Dat.blockOf iblk1; rw [A_eq1]; try rfl)
/-- The bias row's block: fetched where the contraction coordinate is 0 and found unchanged at the seven points
    after (its block index does not move along the contraction axis, and the body leaves it in place). -/
theorem before1_2 (c : Dev nD) (t : Fin cfg1.N) (d) : (dat1 V c).before 2 t d = iblk1 V c 2 t :=
  ((dat1 V c).before_in_eq_fetched 2 rfl live1_2 (fun _ _ _ => rfl)
    (fun t => by rw [after1_2]; unfold Dat.blockOf iblk1; rw [A_eq1]; try rfl) t d).trans
    (by unfold Dat.fetched Dat.blockOf iblk1; rw [A_eq1]; try rfl)

/-! ## The invariant, position by position -/

/-- What the launch hands the region, spelt out: region 0's three staging buffers at anything, the scratch owned
    as a memref at some contents, the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ d, owns (c : Thread nD τ) scM1 fullShare d)) ∗ (∃ r, prngReg c r)) := by
  unfold Pipeline.ΦA; rw [scopedRest1_eq]; simp only [scM1, owns_whole]; try rfl

theorem PhiS1_zero (c : Dev nD) (n : ℕ) (h : n ≤ cfg1.N) (hz : n = 0) : PhiS1 V c n h = Pipeline.ΦA spec1 c := by
  subst hz; rfl

/-- After point `n`: the scratch at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ owns (c : Thread nD τ) scM1 fullShare (sc1 V c n hn)) ∗ (∃ r, prngReg c r)) := rfl

/-- Before a point that is not the first: the scratch at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ owns (c : Thread nD τ) scM1 fullShare (sc1 V c (n - 1) (by omega))) ∗ (∃ r, prngReg c r)) := by
  cases n with
  | zero => exact absurd rfl hz
  | succ n => rfl

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-! ## The body on whole staging memrefs, case by case -/

/-- The zero offsets of every load and store of the body, as the constant function. -/
theorem hz1 : (![0, 0] : Fin 2 → ℕ) = fun _ => 0 := by
  funext a; fin_cases a <;> rfl

set_option maxHeartbeats 1000000 in
/-- Where neither test holds (contraction coordinate 1 … 6) the body reads the two argument blocks and the scratch
    and stores the scratch plus the block product back; the bias row and the output block are not touched. -/
theorem bodyB1 (c : Dev nD) (i : grid1.Coords)
    (arg3 : Memref sig .tc .vmem S1024x256 .f32) (harg3 : arg3.IsWhole)
    (arg4 : Memref sig .tc .vmem S256x1024 .f32) (harg4 : arg4.IsWhole)
    (arg5 : Memref sig .tc .vmem S1x1024 .f32) (harg5 : arg5.IsWhole)
    (arg6 : Memref sig .tc .vmem S1024x1024 .f32) (harg6 : arg6.IsWhole)
    (arg7 : Memref sig .tc .vmem S1024x1024 .f32) (harg7 : arg7.IsWhole)
    (hcA : ¬condA1 i) (hcC : ¬condC1 i)
    (x : Vec F S1024x256 .f32) (w : Vec F S256x1024 .f32) (xs : Vec F S1024x1024 .f32)
    (E : Set ℕ) (K : PUnit → sProp 𝕄) :
    iprop(owns (c : Thread nD τ) arg3 fullShare x ∗ owns (c : Thread nD τ) arg4 fullShare w
        ∗ owns (c : Thread nD τ) arg7 fullShare xs
        ∗ (iprop(owns (c : Thread nD τ) arg3 fullShare x ∗ owns (c : Thread nD τ) arg4 fullShare w
            ∗ owns (c : Thread nD τ) arg7 fullShare (k1_pay2 x w xs)) -∗ K ⟨⟩))
      ⊢ wp frame (wpE (defs₀ (F := F)) Variants.none c none) E
          (cc1__matmul_kernel i arg3 harg3 arg4 harg4 arg5 harg5 arg6 harg6 arg7 harg7) K := by
  simp only [cc1__matmul_kernel_eq_skeleton]; unfold cc1__matmul_kernel_skel
  unfold owns
  iintro ⟨⟨%f3, %hf3, H3⟩, ⟨%f4, %hf4, H4⟩, ⟨%f7, %hf7, H7⟩, Hk⟩
  obtain rfl := harg3.eq_unread hf3; obtain rfl := harg4.eq_unread hf4; obtain rfl := harg7.eq_unread hf7
  sl_exec (disch := first | exact hcA | exact hcC)
  sl_step
  iapply Hk
  isplitl [H3]
  · iexists _; isplitr; · ipureintro; exact harg3.read_unread _
    iexact H3
  isplitl [H4]
  · iexists _; isplitr; · ipureintro; exact harg4.read_unread _
    iexact H4
  iexists _; isplitr
  swap; · iexact H7
  ipureintro
  rw [View.read_writes_eq_canon _ _ _ (fun y => ⟨_, List.mem_singleton_self _, View.mem_set_unit_zero hz1 inb_S1024x1024_S1024x1024_0_0 y⟩),
    View.canon_unit_zero hz1]
  simp only [View.readAt_eq_ld, harg3.read_unread, harg4.read_unread, harg7.read_unread,
    View.ld_unit_zero (S := S1024x256) hz1, View.ld_unit_zero (S := S256x1024) hz1, View.ld_unit_zero (S := S1024x1024) hz1]

set_option maxHeartbeats 1000000 in
/-- Where the first test holds (contraction coordinate 0) the body zeroes the scratch, whatever it held, reads the
    zero block back and stores it plus the block product; the bias row and the output block are not touched. -/
theorem bodyA1 (c : Dev nD) (i : grid1.Coords)
    (arg3 : Memref sig .tc .vmem S1024x256 .f32) (harg3 : arg3.IsWhole)
    (arg4 : Memref sig .tc .vmem S256x1024 .f32) (harg4 : arg4.IsWhole)
    (arg5 : Memref sig .tc .vmem S1x1024 .f32) (harg5 : arg5.IsWhole)
    (arg6 : Memref sig .tc .vmem S1024x1024 .f32) (harg6 : arg6.IsWhole)
    (arg7 : Memref sig .tc .vmem S1024x1024 .f32) (harg7 : arg7.IsWhole)
    (hcA : condA1 i) (hcC : ¬condC1 i)
    (x : Vec F S1024x256 .f32) (w : Vec F S256x1024 .f32)
    (E : Set ℕ) (K : PUnit → sProp 𝕄) :
    iprop(owns (c : Thread nD τ) arg3 fullShare x ∗ owns (c : Thread nD τ) arg4 fullShare w
        ∗ (∃ d, owns (c : Thread nD τ) arg7 fullShare d)
        ∗ (iprop(owns (c : Thread nD τ) arg3 fullShare x ∗ owns (c : Thread nD τ) arg4 fullShare w
            ∗ owns (c : Thread nD τ) arg7 fullShare (k1_pay2 x w (k1_pay1 (F := F)))) -∗ K ⟨⟩))
      ⊢ wp frame (wpE (defs₀ (F := F)) Variants.none c none) E
          (cc1__matmul_kernel i arg3 harg3 arg4 harg4 arg5 harg5 arg6 harg6 arg7 harg7) K := by
  simp only [cc1__matmul_kernel_eq_skeleton]; unfold cc1__matmul_kernel_skel
  unfold owns
  iintro ⟨⟨%f3, %hf3, H3⟩, ⟨%f4, %hf4, H4⟩, ⟨%d7, %f7, -, H7⟩, Hk⟩
  obtain rfl := harg3.eq_unread hf3; obtain rfl := harg4.eq_unread hf4
  sl_exec (disch := first | exact hcA | exact hcC)
  sl_step
  iapply Hk
  isplitl [H3]
  · iexists _; isplitr; · ipureintro; exact harg3.read_unread _
    iexact H3
  isplitl [H4]
  · iexists _; isplitr; · ipureintro; exact harg4.read_unread _
    iexact H4
  iexists _; isplitr
  swap; · iexact H7
  ipureintro
  sl_unfold_words
  rw [View.read_writes_eq_canon _ _ _ (fun y => ⟨_, List.mem_cons.mpr (Or.inl rfl), View.mem_set_unit_zero hz1 inb_S1024x1024_S1024x1024_0_0 y⟩),
    View.canon_cons_unit_zero (S := S1024x1024) hz1]
  simp only [View.readAt_eq_ld, harg3.read_unread, harg4.read_unread,
    View.ld_unit_zero (S := S1024x256) hz1, View.ld_unit_zero (S := S256x1024) hz1,
    View.readCov_unit_zero (S := S1024x1024) _ hz1]

set_option maxHeartbeats 1000000 in
/-- Where the second test holds (contraction coordinate 7) the body accumulates as elsewhere, then reads the bias
    row and the scratch just stored and stores their sum into the output block, whatever that held. -/
theorem bodyC1 (c : Dev nD) (i : grid1.Coords)
    (arg3 : Memref sig .tc .vmem S1024x256 .f32) (harg3 : arg3.IsWhole)
    (arg4 : Memref sig .tc .vmem S256x1024 .f32) (harg4 : arg4.IsWhole)
    (arg5 : Memref sig .tc .vmem S1x1024 .f32) (harg5 : arg5.IsWhole)
    (arg6 : Memref sig .tc .vmem S1024x1024 .f32) (harg6 : arg6.IsWhole)
    (arg7 : Memref sig .tc .vmem S1024x1024 .f32) (harg7 : arg7.IsWhole)
    (hcA : ¬condA1 i) (hcC : condC1 i)
    (x : Vec F S1024x256 .f32) (w : Vec F S256x1024 .f32) (b : Vec F S1x1024 .f32) (xs : Vec F S1024x1024 .f32)
    (E : Set ℕ) (K : PUnit → sProp 𝕄) :
    iprop(owns (c : Thread nD τ) arg3 fullShare x ∗ owns (c : Thread nD τ) arg4 fullShare w
        ∗ owns (c : Thread nD τ) arg5 fullShare b ∗ (∃ d, owns (c : Thread nD τ) arg6 fullShare d)
        ∗ owns (c : Thread nD τ) arg7 fullShare xs
        ∗ (iprop(owns (c : Thread nD τ) arg3 fullShare x ∗ owns (c : Thread nD τ) arg4 fullShare w
            ∗ owns (c : Thread nD τ) arg5 fullShare b
            ∗ owns (c : Thread nD τ) arg6 fullShare (k1_pay3 b (k1_pay2 x w xs))
            ∗ owns (c : Thread nD τ) arg7 fullShare (k1_pay2 x w xs)) -∗ K ⟨⟩))
      ⊢ wp frame (wpE (defs₀ (F := F)) Variants.none c none) E
          (cc1__matmul_kernel i arg3 harg3 arg4 harg4 arg5 harg5 arg6 harg6 arg7 harg7) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%d6, %f6, -, H6⟩, ⟨%f7, %hf7, H7⟩, Hk⟩
  obtain rfl := harg3.eq_unread hf3; obtain rfl := harg4.eq_unread hf4; obtain rfl := harg5.eq_unread hf5
  obtain rfl := harg7.eq_unread hf7
  sl_exec (disch := first | exact hcA | exact hcC)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    rw [View.read_writes_eq_canon _ _ _ (fun y => ⟨_, List.mem_singleton_self _, View.mem_set_unit_zero hz1 inb_S1024x1024_S1024x1024_0_0 y⟩),
      View.canon_unit_zero hz1]
    simp only [View.readAt_eq_ld, harg3.read_unread, harg4.read_unread, harg5.read_unread, harg7.read_unread,
      View.ld_unit_zero (S := S1024x256) hz1, View.ld_unit_zero (S := S256x1024) hz1,
      View.ld_unit_zero (S := S1x1024) hz1, View.ld_unit_zero (S := S1024x1024) hz1,
      View.readCov_unit_zero (S := S1024x1024) _ hz1]
  iexists _; isplitr
  swap; · iexact H7
  ipureintro
  sl_unfold_words
  rw [View.read_writes_eq_canon _ _ _ (fun y => ⟨_, List.mem_singleton_self _, View.mem_set_unit_zero hz1 inb_S1024x1024_S1024x1024_0_0 y⟩),
    View.canon_unit_zero hz1]
  simp only [View.readAt_eq_ld, harg3.read_unread, harg4.read_unread, harg7.read_unread,
    View.ld_unit_zero (S := S1024x256) hz1, View.ld_unit_zero (S := S256x1024) hz1, View.ld_unit_zero (S := S1024x1024) hz1]

/-! ## The body obligation, at a generic point -/

/-- Each window's current staging memref at point `t`, as the pipeline passes it to the body, and its wholeness. -/
abbrev ms1_0 (t : Fin cfg1.N) : Memref sig .tc .vmem S1024x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)

/-- What the body is called with at point `t`: the invariant, what the core owes, and the four current staging
    buffers at what they hold there, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

/-- At a point live for a window the body owes that window's buffer at what it leaves there. -/
theorem leaves1_live (c : Dev nD) (w : Fin cfg1.W) (t : Fin cfg1.N) (hi : cfg1.idle w (cfg1.grid.coords t) = false) :
    (dat1 V c).leavesExact w t
      = owns (c : Thread nD τ) ((cfg1.win w).stage (cfg1.slots t w)) fullShare ((dat1 V c).after w t) := by
  unfold Dat.leavesExact; rw [hi]

set_option maxHeartbeats 4800000 in
/-- The body at any point. The input buffers hold their blocks; the position modulo 8 says which of the three
    cases the point is in; the invariant hands the body the scratch at what the point before left (at anything
    before the first point) and takes it back at this point's contents, which by the recursion `sc1` is the zero block
    plus the product where the position is ≡ 0 and the previous contents plus the product elsewhere; the output
    buffer is handed back as found except where the position is ≡ 7, where it holds the scratch plus the bias row;
    the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [leaves1_live V c 0 t (live1_0 _), after1_0, leaves1_live V c 1 t (live1_1 _), after1_1,
    leaves1_live V c 2 t (live1_2 _), after1_2]
  by_cases h0 : t.val % 8 = 0
  · have h7 : ¬t.val % 8 = 7 := by omega
    rw [Dat.leavesExact_idle (dat1 V c) 3 t (idle1_3 t h7) (noFlush1_3 t h7), sc1_reset V c t h0]
    by_cases hz : t.val = 0
    · rw [PhiS1_castSucc V c t, PhiS1_zero V c _ _ hz, PhiA1_eq]
      iintro ⟨⟨⟨Hb0, Hb1, Hb2, HS⟩, Hg⟩, Ho, ⟨%d0, H0⟩, ⟨%d1, H1⟩, ⟨%d2, H2⟩, ⟨%d3, H3⟩⟩
      iapply (bodyA1 c (grid1.coords t) (ms1_0 t) (hs1_0 t) (ms1_1 t) (hs1_1 t) (ms1_2 t) (hs1_2 t) (ms1_3 t) (hs1_3 t) scM1 (Memref.isWhole_whole _)
        ((hcondA1 t).mpr h0) (fun h => h7 ((hcondC1 t).mp h)) (xblk1 V c t) (wblk1 V c t) Set.univ _)
      isplitl [H0]; · iexact H0
      isplitl [H1]; · iexact H1
      isplitl [HS]; · iexact HS
      iintro ⟨H0, H1, HS⟩
      isplitl [Hb0 Hb1 Hb2 HS Hg]
      · isplitl [Hb0 Hb1 Hb2 HS]
        · isplitl [Hb0]; · iexact Hb0
          isplitl [Hb1]; · iexact Hb1
          isplitl [Hb2]; · iexact Hb2
          iexact HS
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨Hb0, Hb1, Hb2, HS⟩, Hg⟩, Ho, ⟨%d0, H0⟩, ⟨%d1, H1⟩, ⟨%d2, H2⟩, ⟨%d3, H3⟩⟩
      iapply (bodyA1 c (grid1.coords t) (ms1_0 t) (hs1_0 t) (ms1_1 t) (hs1_1 t) (ms1_2 t) (hs1_2 t) (ms1_3 t) (hs1_3 t) scM1 (Memref.isWhole_whole _)
        ((hcondA1 t).mpr h0) (fun h => h7 ((hcondC1 t).mp h)) (xblk1 V c t) (wblk1 V c t) Set.univ _)
      isplitl [H0]; · iexact H0
      isplitl [H1]; · iexact H1
      isplitl [HS]; · iexists _; iexact HS
      iintro ⟨H0, H1, HS⟩
      isplitl [Hb0 Hb1 Hb2 HS Hg]
      · isplitl [Hb0 Hb1 Hb2 HS]
        · isplitl [Hb0]; · iexact Hb0
          isplitl [Hb1]; · iexact Hb1
          isplitl [Hb2]; · iexact Hb2
          iexact HS
        iexact Hg
      isplitl [Ho]; · iexact Ho
      isplitl [H0]; · iexact H0
      isplitl [H1]; · iexact H1
      isplitl [H2]; · iexact H2
      iexists _; iexact H3
  · have hz : t.val ≠ 0 := fun h => h0 (by rw [h])
    rw [PhiS1_castSucc V c t, PhiS1_pos V c _ _ hz, sc1_step V c t h0]
    by_cases h7 : t.val % 8 = 7
    · rw [leaves1_live V c 3 t (live1_3 t h7), after1_3]
      unfold out3
      rw [sc1_step V c t h0]
      iintro ⟨⟨⟨Hb0, Hb1, Hb2, HS⟩, Hg⟩, Ho, ⟨%d0, H0⟩, ⟨%d1, H1⟩, ⟨%d2, H2⟩, ⟨%d3, H3⟩⟩
      iapply (bodyC1 c (grid1.coords t) (ms1_0 t) (hs1_0 t) (ms1_1 t) (hs1_1 t) (ms1_2 t) (hs1_2 t) (ms1_3 t) (hs1_3 t) scM1 (Memref.isWhole_whole _)
        (fun h => h0 ((hcondA1 t).mp h)) ((hcondC1 t).mpr h7) (xblk1 V c t) (wblk1 V c t) (bblk1 V c t)
        (sc1 V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [Hb0 Hb1 Hb2 HS Hg]
      · isplitl [Hb0 Hb1 Hb2 HS]
        · isplitl [Hb0]; · iexact Hb0
          isplitl [Hb1]; · iexact Hb1
          isplitl [Hb2]; · iexact Hb2
          iexact HS
        iexact Hg
      isplitl [Ho]; · iexact Ho
      isplitl [H0]; · iexact H0
      isplitl [H1]; · iexact H1
      isplitl [H2]; · iexact H2
      iexact H3
    · rw [Dat.leavesExact_idle (dat1 V c) 3 t (idle1_3 t h7) (noFlush1_3 t h7)]
      iintro ⟨⟨⟨Hb0, Hb1, Hb2, HS⟩, Hg⟩, Ho, ⟨%d0, H0⟩, ⟨%d1, H1⟩, ⟨%d2, H2⟩, ⟨%d3, H3⟩⟩
      iapply (bodyB1 c (grid1.coords t) (ms1_0 t) (hs1_0 t) (ms1_1 t) (hs1_1 t) (ms1_2 t) (hs1_2 t) (ms1_3 t) (hs1_3 t) scM1 (Memref.isWhole_whole _)
        (fun h => h0 ((hcondA1 t).mp h)) (fun h => h7 ((hcondC1 t).mp h)) (xblk1 V c t) (wblk1 V c t)
        (sc1 V c (t.val - 1) (Nat.lt_of_le_of_lt (Nat.sub_le _ _) t.isLt)) Set.univ _)
      isplitl [H0]; · iexact H0
      isplitl [H1]; · iexact H1
      isplitl [HS]; · iexact HS
      iintro ⟨H0, H1, HS⟩
      isplitl [Hb0 Hb1 Hb2 HS Hg]
      · isplitl [Hb0 Hb1 Hb2 HS]
        · isplitl [Hb0]; · iexact Hb0
          isplitl [Hb1]; · iexact Hb1
          isplitl [Hb2]; · iexact Hb2
          iexact HS
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := by
  intro t
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Pipeline.ΦA spec1 c from PhiS1_zero V c 0 (Nat.zero_le _) rfl]

/-- After the last point the invariant gives the class's back: the scratch's named contents are forgotten. -/
theorem hout1 (c : Dev nD) : (dat1 V c).Φ (Fin.last cfg1.N) ⊢ Pipeline.ΦA spec1 c := by
  have hl : (Fin.last cfg1.N).val ≠ 0 := by rw [Fin.val_last]; have : cfg1.N = 128 := N_1; omega
  rw [show (dat1 V c).Φ (Fin.last cfg1.N) = PhiS1 V c (Fin.last cfg1.N).val (Nat.le_of_lt_succ (Fin.last cfg1.N).isLt) from rfl,
    PhiS1_pos V c _ _ hl, PhiA1_eq]
  iintro ⟨⟨Hb0, Hb1, Hb2, HS⟩, Hg⟩
  isplitl [Hb0 Hb1 Hb2 HS]
  · isplitl [Hb0]; · iexact Hb0
    isplitl [Hb1]; · iexact Hb1
    isplitl [Hb2]; · iexact Hb2
    iexists _; iexact HS
  iexact Hg

end Cert.KernelIdeal.Hand

end
-- ==== Proof.KernelIdeal.Run.lean ====
/-
  The run of the kernel program: its two regions in order, from the launch to the return.
  The contents of the unscoped buffers at each boundary are a fold from the launch memory: region 0 changes only
  its output array (the 1×2048 row), region 1 only its own (the 8192×2048 result), each to what the pipeline's
  write-backs leave (`Dat.arrAt … N`); the three arguments are never written. Every weakly fair execution terminates
  with every unscoped buffer at the last boundary's contents; the frame claim and the value of the result are read
  off that.
-/
import proofs.«169282_j52450140619301_1_alg».proof.Proof.KernelIdeal.Bias
import proofs.«169282_j52450140619301_1_alg».proof.Proof.KernelIdeal.Matmul

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (region 0's entry: no host operation comes before it). -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b

/-- At region 0's exit (region 1's entry): its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit (the return). -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ## What the boundaries hold at the buffers the claims read -/

/-- Region 0 reads the third argument through an input window and never writes it. -/
theorem V0_main_arg2 (c : Dev nD) : V0 m ρ c main_arg2 = m ((c : Thread nD τ).loc main_arg2) := rfl
/-- Region 1 finds the first two arguments as launched: region 0 bypasses them. -/
theorem V1_main_arg0 (c : Dev nD) : V1 m ρ c main_arg0 = m ((c : Thread nD τ).loc main_arg0) :=
  W1_of_ne m ρ c main_arg0 (by decide)
theorem V1_main_arg1 (c : Dev nD) : V1 m ρ c main_arg1 = m ((c : Thread nD τ).loc main_arg1) :=
  W1_of_ne m ρ c main_arg1 (by decide)
/-- and the bias row at what region 0's write-back left. -/
theorem V1_main_v0 (c : Dev nD) : V1 m ρ c main_v0 = (dat0 (V0 m ρ) c).arrAt 1 cfg0.N :=
  W1_arr m ρ c 1
/-- At the return the result array holds what region 1's write-backs left, -/
theorem W2_main_v1 (c : Dev nD) : W2 m ρ c (Proc.devRef .tc main_v1) = (dat1 (V1 m ρ) c).arrAt 3 cfg1.N :=
  W2_arr m ρ c 3
/-- and each argument its launch contents. -/
theorem W2_main_arg0 (c : Dev nD) : W2 m ρ c (Proc.devRef .tc main_arg0) = m ((c : Thread nD τ).loc main_arg0) :=
  calc W2 m ρ c (Proc.devRef .tc main_arg0)
    _ = (dat1 (V1 m ρ) c).arrAt 0 cfg1.N := W2_arr m ρ c 0
    _ = V1 m ρ c main_arg0 := ((dat1 (V1 m ρ) c).arrAt_in 0 rfl _).trans (A_eq1 (V1 m ρ) c 0)
    _ = m ((c : Thread nD τ).loc main_arg0) := V1_main_arg0 m ρ c
theorem W2_main_arg1 (c : Dev nD) : W2 m ρ c (Proc.devRef .tc main_arg1) = m ((c : Thread nD τ).loc main_arg1) :=
  calc W2 m ρ c (Proc.devRef .tc main_arg1)
    _ = (dat1 (V1 m ρ) c).arrAt 1 cfg1.N := W2_arr m ρ c 1
    _ = V1 m ρ c main_arg1 := ((dat1 (V1 m ρ) c).arrAt_in 1 rfl _).trans (A_eq1 (V1 m ρ) c 1)
    _ = m ((c : Thread nD τ).loc main_arg1) := V1_main_arg1 m ρ c
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = (dat0 (V0 m ρ) c).arrAt 0 cfg0.N := W1_arr m ρ c 0
    _ = V0 m ρ c main_arg2 := ((dat0 (V0 m ρ) c).arrAt_in 0 rfl _).trans (A_eq0 (V0 m ρ) c 0)
    _ = m ((c : Thread nD τ).loc main_arg2) := rfl

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through both regions: the generator register at some state, nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W2 m ρ c) ∗ ∃ r, prngReg c r)

/-! ## The regions as segments -/

set_option backward.isDefEq.respectTransparency.types false in
/-- Region 0 over the thread state: entered from every unscoped buffer at the launch contents, left at `W1`. Its
    arrays are split out of the unscoped buffers and put back at the exit contents; the generator register goes into
    the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W1`, left at `W2`. The region's
    invariant takes the scoped buffers it does not stage — its scratch accumulator among them — and the generator
    register in (`hin1`) and gives them back after the last point with the scratch's contents forgotten (`hout1`). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec1 c ⊢ (pdats m ρ 1 c).Φ 0 from hin1 (V1 m ρ) c)
    unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

/-- @main's two segments in order. -/
abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- THE RUN. From any memory with zero counters, every weakly fair execution of @main on the TensorCores terminates,
    nothing faulting, and every final state has every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c)⟩) (run_main m ρ)

/-- THE VALUE RUN: the same run with the result array named: what region 1's write-backs leave in it, region 1
    entered at what region 0 left. -/
theorem run_value : θ_run defs (onTc (τ := τ) (main (F := F))) ⟨m, fun _ => 0, ρ⟩ (fun r => ∀ c : Dev nD,
      r.2.mem ((c.tc : Thread nD τ).loc main_v1) = (dat1 (V1 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v1 (by decide))).trans (W2_main_v1 m ρ c),
     (h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c)⟩) (run_main m ρ)

end Cert.KernelIdeal.Hand

end
-- ==== Proof.Spec.lean ====
/-
  The specification: what both programs compute at the ideal instance, as functions of the argument arrays over the
  extended reals, index by index. With x : 8192×2048, w : 2048×2048, b : 2048×2048,

      result[r, j] = (∑ k, tanh(x[r, k]) · w[k, j]) + ∑ i, b[i, j].

  The kernel program computes the column sums of b first (into a 1×2048 row) and adds that row after the product;
  `prodPlusRow` is that second stage over any row, `colSums` the first, `result` their composition.
-/
import Idealize.ShloMosaic.PureOps.Ideal
import Idealize.ShloMosaic.Lib.ValueIdx

noncomputable section

namespace Cert.Spec

open Idealize.ShloMosaic Idealize.ShloMosaic.ValueIdx

abbrev SX : Shape := ⟨2, ![8192, 2048]⟩
abbrev SW : Shape := ⟨2, ![2048, 2048]⟩
abbrev SRow : Shape := ⟨2, ![1, 2048]⟩

/-- The column sums of a 2048×2048 array, as a 1×2048 row. -/
def colSums (b : SW.Idx → EReal) : SRow.Idx → EReal :=
  fun j => ∑ i : Fin 2048, b (ix2 i (j 1))

/-- tanh(x) times w, plus a 1×2048 row added to every row of the product. -/
def prodPlusRow (x : SX.Idx → EReal) (w : SW.Idx → EReal) (row : SRow.Idx → EReal) : SX.Idx → EReal :=
  fun i => (∑ k : Fin 2048, Ideal.tanh (x (ix2 (i 0) k)) * w (ix2 k (i 1))) + row (ix2 (0 : Fin 1) (i 1))

/-- The whole result. -/
def result (x : SX.Idx → EReal) (w : SW.Idx → EReal) (b : SW.Idx → EReal) : SX.Idx → EReal :=
  prodPlusRow x w (colSums b)

end Cert.Spec

end
-- ==== Proof.LibBlockSum.lean ====
/-
  Sums over consecutive indices, cut into equal blocks.

  The indices 0, 1, …, n·B − 1 fall into n consecutive blocks of length B: block kb holds the indices
  B·kb, B·kb + 1, …, B·kb + (B − 1). In a commutative monoid a sum over all n·B indices is therefore the sum,
  over the n blocks, of the sum over each block's B indices.
-/
import Mathlib.Algebra.BigOperators.Group.Finset.Basic
import Mathlib.Data.Fintype.BigOperators

namespace Cert.Lib

open Finset

/-- Over initial segments of ℕ: the sum of `g` over the first `n * B` naturals is the sum over the `n` blocks of the
    sum of `g` over each block's `B` naturals. By induction on the number of blocks: the first `(n + 1) * B = n * B + B`
    naturals are the first `n * B` followed by the `B` naturals `n * B + k`, which are block `n`. -/
theorem sum_range_mul_eq_sum_range_blocks {M : Type*} [AddCommMonoid M] (n B : ℕ) (g : ℕ → M) :
    (∑ k ∈ range (n * B), g k) = ∑ kb ∈ range n, ∑ k ∈ range B, g (B * kb + k) := by
  induction n with
  | zero => simp
  | succ n ih => rw [Nat.succ_mul, sum_range_add, sum_range_succ, ih, Nat.mul_comm n B]

/-- A sum over `n * B` consecutive indices is the sum over the `n` blocks of the sums over each block's `B` indices:
    `∑_{k < n·B} g k = ∑_{kb < n} ∑_{k < B} g (B·kb + k)`. -/
theorem sum_fin_mul_eq_sum_range_blocks {M : Type*} [AddCommMonoid M] (n B : ℕ) (g : ℕ → M) :
    (∑ k : Fin (n * B), g k.val) = ∑ kb ∈ Finset.range n, ∑ k : Fin B, g (B * kb + k.val) := by
  rw [Fin.sum_univ_eq_sum_range g (n * B), sum_range_mul_eq_sum_range_blocks]
  refine Finset.sum_congr rfl fun kb _ => ?_
  exact (Fin.sum_univ_eq_sum_range (fun k => g (B * kb + k)) B).symm

/-- The same with the number of indices given as a literal `N` known to equal `n * B`. -/
theorem sum_fin_eq_sum_range_blocks {M : Type*} [AddCommMonoid M] (N n B : ℕ) (h : N = n * B) (g : ℕ → M) :
    (∑ k : Fin N, g k.val) = ∑ kb ∈ Finset.range n, ∑ k : Fin B, g (B * kb + k.val) := by
  subst h
  exact sum_fin_mul_eq_sum_range_blocks n B g

end Cert.Lib
-- ==== Proof.BiasValue.lean ====
/-
  The value of region 0 at the ideal instance: after its four points the 1×2048 output array holds the column sums of
  the 2048×2048 array the region read — point n adds the column sums of rows 512·n … 512·n+511 to what the points
  before left, starting from the zero row, and the block is written back once, after the last point.

  The steps. (1) The body's update read at a column: the row held so far plus the sum of the staged block's column
  (a reduction over the block's rows; the shape casts around it move no entry). (2) The block staged at point t is
  rows 512·t … 512·t+511 of the array. (3) By induction on the point, the row after point n is, column by column,
  the sum over the first n+1 row blocks of each block's column sum. (4) After the last point that is the sum over
  all 2048 rows, because 4 blocks of 512 consecutive rows are exactly the 2048 rows (only commutativity and
  associativity of + on the extended reals are used). (5) The output's one block is the whole array and only the
  last point writes it back, so the array ends holding that row.
-/
import proofs.«169282_j52450140619301_1_alg».proof.Proof.KernelIdeal.BiasDefs
import proofs.«169282_j52450140619301_1_alg».proof.Proof.Spec
import proofs.«169282_j52450140619301_1_alg».proof.Proof.LibBlockSum
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-! ## The body's two payloads, read at an index -/

/-- The row the first point starts from is zero everywhere. -/
theorem zeroRow_apply (j : Fin 2048) : (k0_pay1 (F := Ideal)) (ix2 (0 : Fin 1) j) = 0 := by
  unfold k0_pay1
  show Ideal.ofBits .f32 0x00000000#32 = 0
  exact Ideal.ofBits_zero_f32

/-- The index the reduction over the rows inserts: row `r` above column `j`. -/
theorem lift_eq (j : Fin 2048) (r : Fin 512) :
    (reduces_S512x2048_S2048.lift (ix1 j) r : S512x2048.Idx) = ix2 r j := by
  funext a
  match a with
  | ⟨0, _⟩ => rfl
  | ⟨1, _⟩ => rfl

/-- One point's update at column `j`: the row held so far plus the sum of the staged block's column `j`
    (the two shape casts move nothing: 1×2048 to itself, and 2048 to 1×2048 at the same row-major place). -/
theorem addRows_apply (v3 : Vec Ideal S1x2048 .f32) (v5 : Vec Ideal S512x2048 .f32) (j : Fin 2048) :
    k0_pay2 v3 v5 (ix2 (0 : Fin 1) j) = v3 (ix2 (0 : Fin 1) j) + ∑ r : Fin 512, v5 (ix2 r j) := by
  unfold k0_pay2
  show shapeCast S1x2048 v3 shapeCasts_S1x2048_S1x2048 (ix2 (0 : Fin 1) j)
      + shapeCast S1x2048 (multiReduction (F := Ideal) .add [0] S2048 v5 0x00000000#32 reduces_S512x2048_S2048 (.inl rfl) rfl) shapeCasts_S2048_S1x2048 (ix2 (0 : Fin 1) j) = _
  refine congrArg₂ (· + ·) (congrFun (shapeCast_self v3 _) _) ?_
  refine (shapeCast_apply _ shapeCasts_S2048_S1x2048 (ix2 (0 : Fin 1) j) (ix1 j) ?_).trans ?_
  · rw [Shape.rowMajor_val_one, Shape.rowMajor_val_two]
    show j.val = (0 : Fin 1).val * 2048 + j.val
    simp
  refine (Ideal.multiReduction_add_single v5 0x00000000#32 reduces_S512x2048_S2048 (.inl rfl) rfl (ix1 j)).trans ?_
  exact Finset.sum_congr rfl fun r _ => congrArg v5 (lift_eq j r)

/-! ## The staged rows, read off the array -/

/-- The array the region reads, as the region finds it, at its literal type. -/
abbrev arrB (c : Dev nD) : Cert.Spec.SW.Idx → EReal := V c main_arg2

/-- Column `j` of a 2048×2048 array as a function of the row NUMBER (zero past the last row), so that sums over
    row blocks can be written over natural numbers. -/
def colAt (b : Cert.Spec.SW.Idx → EReal) (j : Fin 2048) (i : ℕ) : EReal :=
  if h : i < 2048 then b (ix2 ⟨i, h⟩ j) else 0

/-- The input window's block index at point `t` is (t, 0); the output window's is (0, 0) at every point. -/
theorem blockIdx : ∀ t : Fin cfg0.N, win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

/-- Point `t` stages rows 512·t … 512·t + 511: entry (r, j) of its block is entry (512·t + r, j) of the array. -/
theorem rows0_apply (c : Dev nD) (t : Fin cfg0.N) (r : Fin 512) (j : Fin 2048) :
    rows0 V c t (ix2 r j) = colAt (arrB V c) j (512 * t.val + r.val) := by
  have hN : cfg0.N = 4 := N_0
  have ht := t.isLt
  have hlt : 512 * t.val + r.val < 2048 := by omega
  unfold colAt
  rw [dif_pos hlt]
  show ((cfg0.win 0).blk t).view.read (Elt Ideal) (arrB V c) (ix2 r j) = _
  rw [View.read_apply]
  refine congrArg (arrB V c) ?_
  obtain ⟨e0, e1, -, -⟩ := blockIdx t
  funext a
  apply Fin.ext
  match a with
  | ⟨0, _⟩ => show win0_0.index t (0 : Fin 2) * 512 + 1 * r.val = 512 * t.val + r.val; rw [e0]; omega
  | ⟨1, _⟩ => show win0_0.index t (1 : Fin 2) * 2048 + 1 * j.val = j.val; rw [e1]; omega

/-! ## The accumulation: after point `n` the row holds the column sums of the first n + 1 row blocks -/

theorem acc0_apply (c : Dev nD) (j : Fin 2048) : ∀ (n : ℕ) (hn : n < cfg0.N),
    acc0 V c n hn (ix2 (0 : Fin 1) j)
      = ∑ kb ∈ Finset.range (n + 1), ∑ k : Fin 512, colAt (arrB V c) j (512 * kb + k.val)
  | 0, hn => by
    show k0_pay2 (k0_pay1 (F := Ideal)) (rows0 V c ⟨0, hn⟩) (ix2 (0 : Fin 1) j) = _
    refine (addRows_apply (k0_pay1 (F := Ideal)) (rows0 V c ⟨0, hn⟩) j).trans ?_
    rw [zeroRow_apply, zero_add, Finset.sum_range_one]
    exact Finset.sum_congr rfl fun r _ => rows0_apply V c ⟨0, hn⟩ r j
  | n + 1, hn => by
    show k0_pay2 (acc0 V c n (Nat.lt_of_succ_lt hn)) (rows0 V c ⟨n + 1, hn⟩) (ix2 (0 : Fin 1) j) = _
    refine (addRows_apply (acc0 V c n (Nat.lt_of_succ_lt hn)) (rows0 V c ⟨n + 1, hn⟩) j).trans ?_
    rw [acc0_apply c j n (Nat.lt_of_succ_lt hn), Finset.sum_range_succ _ (n + 1)]
    exact congrArg _ (Finset.sum_congr rfl fun r _ => rows0_apply V c ⟨n + 1, hn⟩ r j)

/-- After the last point the row holds the column sums of the whole array: the four blocks of 512 rows are all
    2048 rows. -/
theorem acc0_last (c : Dev nD) (n : ℕ) (hn : n < cfg0.N) (h3 : n = 3) :
    (acc0 V c n hn : S1x2048.Idx → EReal) = Cert.Spec.colSums (V c main_arg2) := by
  subst h3
  funext i
  obtain ⟨p, q, rfl⟩ : ∃ (p : Fin 1) (q : Fin 2048), i = ix2 p q := ⟨i 0, i 1, eq_ix2 i⟩
  obtain rfl : p = 0 := Subsingleton.elim _ _
  refine (acc0_apply V c q 3 hn).trans ?_
  show _ = ∑ i : Fin 2048, arrB V c (ix2 i q)
  have hcol : ∀ i : Fin 2048, arrB V c (ix2 i q) = colAt (arrB V c) q i.val := fun i => by
    unfold colAt; rw [dif_pos i.isLt]
  rw [Finset.sum_congr rfl fun i _ => hcol i]
  exact (Cert.Lib.sum_fin_eq_sum_range_blocks 2048 4 512 rfl (colAt (arrB V c) q)).symm

/-! ## The array after the region -/

/-- What a point writes back, if it writes back at all, is the column sums read through its block (the output's one
    block is the whole 1×2048 array, and only the last point writes back). -/
theorem writeBack_eq (c : Dev nD) (t : Fin cfg0.N) (hf : (cfg0.win 1).flush t = true) :
    (dat0 (F := Ideal) V c).flushed 1 t
      = ((cfg0.win 1).blk t).view.read (Elt Ideal) (Cert.Spec.colSums (V c main_arg2)) := by
  have hN : cfg0.N = 4 := N_0
  have h3 : t.val = 3 := by have := (flush0_1 t).mp hf; have := t.isLt; omega
  show (cfg0.win 1).cut (grid0.coords t) ((dat0 V c).after 1 t) = _
  rw [after0_1]
  show (cfg0.win 1).cut (grid0.coords t) (acc0 V c t.val t.isLt : S1x2048.Idx → EReal) = _
  rw [acc0_last V c t.val t.isLt h3]
  obtain ⟨-, -, e0, e1⟩ := blockIdx t
  funext y
  rw [View.read_apply]
  refine congrArg (Cert.Spec.colSums (V c main_arg2)) ?_
  funext a
  apply Fin.ext
  match a with
  | ⟨0, _⟩ => show (y 0).val = win0_1.index t (0 : Fin 2) * 1 + 1 * (y 0).val; rw [e0]; omega
  | ⟨1, _⟩ => show (y 1).val = win0_1.index t (1 : Fin 2) * 2048 + 1 * (y 1).val; rw [e1]; omega

/-- After region 0 the output array holds the column sums of the array the region read. -/
theorem bias_array (c : Dev nD) :
    ((dat0 (F := Ideal) V c).arrAt 1 cfg0.N : Cert.Spec.SRow.Idx → EReal) = Cert.Spec.colSums (V c main_arg2) :=
  (dat0 (F := Ideal) V c).arrAt_eq_of_cover 1 (Cert.Spec.colSums (V c main_arg2)) (writeBack_eq V c) fun i =>
    ⟨t0_3, (flush0_1 t0_3).mpr rfl, by
      obtain ⟨-, -, e0, e1⟩ := blockIdx t0_3
      have h0 : (i 0).val < 1 := idx2_lt0 i
      have h1 : (i 1).val < 2048 := idx2_lt1 i
      show i ∈ ((View.whole main_v0).slice (win0_1.rect t0_3)).set
      rw [View.set_slice_whole, Rect.mem_set_unit]
      intro a
      match a with
      | ⟨0, _⟩ =>
        show win0_1.index t0_3 (0 : Fin 2) * 1 ≤ (i 0).val ∧ (i 0).val < win0_1.index t0_3 (0 : Fin 2) * 1 + 1
        rw [e0]; omega
      | ⟨1, _⟩ =>
        show win0_1.index t0_3 (1 : Fin 2) * 2048 ≤ (i 1).val ∧ (i 1).val < win0_1.index t0_3 (1 : Fin 2) * 2048 + 2048
        rw [e1]; omega⟩

end Cert.KernelIdeal.HandValue

end
-- ==== Proof.MatmulReads.lean ====
/-
  Region 1's blocks, read at an index. The region's grid is 8 × 2 × 8 and point number t = 16·i + 8·j + kk has
  row-block coordinate i = t / 16, column-block coordinate j = (t / 8) mod 2 and contraction coordinate kk = t mod 8.
  At that point the first argument's block is rows 1024·i … and columns 256·kk … of the 8192×2048 array, the second
  argument's block is rows 256·kk … and columns 1024·j … of the 2048×2048 array, the bias block is columns 1024·j … of
  the 1×2048 row, and the output block is rows 1024·i … and columns 1024·j … of the 8192×2048 output. So the entry
  (p, q) of a block is the array's entry at (block row offset + p, block column offset + q).
-/
import proofs.«169282_j52450140619301_1_alg».proof.Proof.KernelIdeal.MatmulDefs
import proofs.«169282_j52450140619301_1_alg».proof.Proof.Spec
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)

variable {F : FTy → Type} [FloatOps F]
variable (V : (c : Dev nD) → (b : Ref sig .tc) → Buf (Elt F) ((c : Thread nD τ).loc b))

/-! ## The block offsets stay inside the arrays -/

/-- Row 1024·(t / 16) + p of the first argument and of the output is below 8192, since t < 128 gives t / 16 ≤ 7. -/
theorem hx0 (t : Fin cfg1.N) (p : Fin 1024) : 1024 * (t.val / 16) + p.val < 8192 := by
  have ht : t.val < 128 := Nat.lt_of_lt_of_eq t.isLt N_1
  have hp : p.val < 1024 := p.isLt
  omega

/-- Contraction index 256·(t mod 8) + k is below 2048, since t mod 8 ≤ 7. -/
theorem hx1 (t : Fin cfg1.N) (k : Fin 256) : 256 * (t.val % 8) + k.val < 2048 := by
  have hk : k.val < 256 := k.isLt
  omega

/-- Column 1024·((t / 8) mod 2) + q is below 2048, since (t / 8) mod 2 ≤ 1. -/
theorem hw1 (t : Fin cfg1.N) (q : Fin 1024) : 1024 * ((t.val / 8) % 2) + q.val < 2048 := by
  have hq : q.val < 1024 := q.isLt
  omega

/-! ## The four windows' block indices in closed form -/

/-- The block index of each of the region's four windows at point number t, per axis, as a function of t:
    first argument (t / 16, t mod 8), second argument (t mod 8, (t / 8) mod 2), bias row (0, (t / 8) mod 2),
    output (t / 16, (t / 8) mod 2). Decided once over the 128 points. -/
theorem idx_facts1 : ∀ t : Fin cfg1.N,
    win1_0.index t (0 : Fin 2) = t.val / 16 ∧ win1_0.index t (1 : Fin 2) = t.val % 8
    ∧ win1_1.index t (0 : Fin 2) = t.val % 8 ∧ win1_1.index t (1 : Fin 2) = (t.val / 8) % 2
    ∧ win1_2.index t (0 : Fin 2) = 0 ∧ win1_2.index t (1 : Fin 2) = (t.val / 8) % 2
    ∧ win1_3.index t (0 : Fin 2) = t.val / 16 ∧ win1_3.index t (1 : Fin 2) = (t.val / 8) % 2 :=
  (by decide +kernel : ∀ t : Fin grid1.N,
    win1_0.index t (0 : Fin 2) = t.val / 16 ∧ win1_0.index t (1 : Fin 2) = t.val % 8
    ∧ win1_1.index t (0 : Fin 2) = t.val % 8 ∧ win1_1.index t (1 : Fin 2) = (t.val / 8) % 2
    ∧ win1_2.index t (0 : Fin 2) = 0 ∧ win1_2.index t (1 : Fin 2) = (t.val / 8) % 2
    ∧ win1_3.index t (0 : Fin 2) = t.val / 16 ∧ win1_3.index t (1 : Fin 2) = (t.val / 8) % 2)

/-! ## Each block at an index

A block's coordinate on an axis is (block index) × (block length) + 1 × (the coordinate inside the block). -/

/-- The first argument's block at point t, entry (p, k): the array's entry at row 1024·(t / 16) + p and
    column 256·(t mod 8) + k. -/
theorem xblk1_apply (c : Dev nD) (t : Fin cfg1.N) (p : Fin 1024) (k : Fin 256) :
    xblk1 V c t (ix2 p k) = V c main_arg0 (ix2 (⟨1024 * (t.val / 16) + p.val, hx0 t p⟩ : Fin 8192) (⟨256 * (t.val % 8) + k.val, hx1 t k⟩ : Fin 2048)) := by
  obtain ⟨e0, e1, -⟩ := idx_facts1 t
  show V c main_arg0 (((cfg1.win 0).blk t).view.emb (ix2 p k)) = _
  have h : ((cfg1.win 0).blk t).view.emb (ix2 p k)
      = ix2 (⟨1024 * (t.val / 16) + p.val, hx0 t p⟩ : Fin 8192) (⟨256 * (t.val % 8) + k.val, hx1 t k⟩ : Fin 2048) := by
    funext a; apply Fin.ext
    match a with
    | ⟨0, _⟩ => show win1_0.index t (0 : Fin 2) * 1024 + 1 * p.val = 1024 * (t.val / 16) + p.val; omega
    | ⟨1, _⟩ => show win1_0.index t (1 : Fin 2) * 256 + 1 * k.val = 256 * (t.val % 8) + k.val; omega
  rw [h]

/-- The second argument's block at point t, entry (k, q): the array's entry at row 256·(t mod 8) + k and
    column 1024·((t / 8) mod 2) + q. -/
theorem wblk1_apply (c : Dev nD) (t : Fin cfg1.N) (k : Fin 256) (q : Fin 1024) :
    wblk1 V c t (ix2 k q) = V c main_arg1 (ix2 (⟨256 * (t.val % 8) + k.val, hx1 t k⟩ : Fin 2048) (⟨1024 * ((t.val / 8) % 2) + q.val, hw1 t q⟩ : Fin 2048)) := by
  obtain ⟨-, -, e0, e1, -⟩ := idx_facts1 t
  show V c main_arg1 (((cfg1.win 1).blk t).view.emb (ix2 k q)) = _
  have h : ((cfg1.win 1).blk t).view.emb (ix2 k q)
      = ix2 (⟨256 * (t.val % 8) + k.val, hx1 t k⟩ : Fin 2048) (⟨1024 * ((t.val / 8) % 2) + q.val, hw1 t q⟩ : Fin 2048) := by
    funext a; apply Fin.ext
    match a with
    | ⟨0, _⟩ => show win1_1.index t (0 : Fin 2) * 256 + 1 * k.val = 256 * (t.val % 8) + k.val; omega
    | ⟨1, _⟩ => show win1_1.index t (1 : Fin 2) * 1024 + 1 * q.val = 1024 * ((t.val / 8) % 2) + q.val; omega
  rw [h]

/-- The bias block at point t, entry (0, q): the row's entry at column 1024·((t / 8) mod 2) + q. -/
theorem bblk1_apply (c : Dev nD) (t : Fin cfg1.N) (q : Fin 1024) :
    bblk1 V c t (ix2 (0 : Fin 1) q) = V c main_v0 (ix2 (0 : Fin 1) (⟨1024 * ((t.val / 8) % 2) + q.val, hw1 t q⟩ : Fin 2048)) := by
  obtain ⟨-, -, -, -, e0, e1, -⟩ := idx_facts1 t
  show V c main_v0 (((cfg1.win 2).blk t).view.emb (ix2 (0 : Fin 1) q)) = _
  have h : ((cfg1.win 2).blk t).view.emb (ix2 (0 : Fin 1) q)
      = ix2 (0 : Fin 1) (⟨1024 * ((t.val / 8) % 2) + q.val, hw1 t q⟩ : Fin 2048) := by
    funext a; apply Fin.ext
    match a with
    | ⟨0, _⟩ => show win1_2.index t (0 : Fin 2) * 1 + 1 * (0 : Fin 1).val = (0 : Fin 1).val; simp only [e0, Fin.val_zero]
    | ⟨1, _⟩ => show win1_2.index t (1 : Fin 2) * 1024 + 1 * q.val = 1024 * ((t.val / 8) % 2) + q.val; omega
  rw [h]

/-- A function on the output array read through the output block at point t, entry (p, q): the function at
    row 1024·(t / 16) + p and column 1024·((t / 8) mod 2) + q. -/
theorem outblk_read_apply (G : Cert.Spec.SX.Idx → Elt F .f32) (t : Fin cfg1.N) (p q : Fin 1024) :
    ((cfg1.win 3).blk t).view.read (Elt F) G (ix2 p q) = G (ix2 (⟨1024 * (t.val / 16) + p.val, hx0 t p⟩ : Fin 8192) (⟨1024 * ((t.val / 8) % 2) + q.val, hw1 t q⟩ : Fin 2048)) := by
  obtain ⟨-, -, -, -, -, -, e0, e1⟩ := idx_facts1 t
  show G (((cfg1.win 3).blk t).view.emb (ix2 p q)) = _
  have h : ((cfg1.win 3).blk t).view.emb (ix2 p q)
      = ix2 (⟨1024 * (t.val / 16) + p.val, hx0 t p⟩ : Fin 8192) (⟨1024 * ((t.val / 8) % 2) + q.val, hw1 t q⟩ : Fin 2048) := by
    funext a; apply Fin.ext
    match a with
    | ⟨0, _⟩ => show win1_3.index t (0 : Fin 2) * 1024 + 1 * p.val = 1024 * (t.val / 16) + p.val; omega
    | ⟨1, _⟩ => show win1_3.index t (1 : Fin 2) * 1024 + 1 * q.val = 1024 * ((t.val / 8) % 2) + q.val; omega
  rw [h]

end Cert.KernelIdeal.HandValue

end
-- ==== Proof.MatmulBlock.lean ====
/-
  Region 1 at the ideal instance, one output block: at a point whose contraction coordinate is 7 the body stores
  into the output window's buffer the scratch accumulator plus the bias row, and the scratch then holds the sum over
  all eight contraction blocks of the block products — so what is written back there is the block of
  (r, j) ↦ (∑ k, tanh(x[r, k]) · w[k, j]) + row[j] that the point's output window names.
-/
import proofs.«169282_j52450140619301_1_alg».proof.Proof.KernelIdeal.MatmulDefs
import proofs.«169282_j52450140619301_1_alg».proof.Proof.LibBlockSum
import proofs.«169282_j52450140619301_1_alg».proof.Proof.MatmulReads
import proofs.«169282_j52450140619301_1_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)

/-! ## The payloads at an index

Each payload of the body, read at the entry (p, q) of the 1024×1024 block: the zero block is 0; the accumulation
step adds to the accumulator the sum over the block's 256 contraction indices of tanh(x[p, k]) · w[k, q] (at the ideal
values the two truncations to bf16 are the identity and the product into the zero accumulator is the plain sum); the
store step adds the bias row's entry of column q. -/

/-- The left operand's index of the product at output entry `i` and contraction index `q`: its row is `i`'s row, -/
theorem lhs_mm_0 (i : S1024x1024.Idx) (q : dot_S1024x256_S256x1024_S1024x1024_1_0_0_1_n_n.contr.Idx) :
    (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide),
    dif_pos (show (0 : Fin S1024x256.rank) ∈ dot_S1024x256_S256x1024_S1024x1024_1_0_0_1_n_n.lhsNonContracting by decide)]
  rfl
/-- its column the contraction index; -/
theorem lhs_mm_1 (i : S1024x1024.Idx) (q : dot_S1024x256_S256x1024_S1024x1024_1_0_0_1_n_n.contr.Idx) :
    (dot_S1024x256_S256x1024_S1024x1024_1_0_0_1_n_n.lhsIdx i q 1).val = (q ⟨0, by decide⟩).val :=
  dot_S1024x256_S256x1024_S1024x1024_1_0_0_1_n_n.lhsIdx_val_of_single rfl i q
/-- the right operand's row is the contraction index, -/
theorem rhs_mm_0 (i : S1024x1024.Idx) (q : dot_S1024x256_S256x1024_S1024x1024_1_0_0_1_n_n.contr.Idx) :
    (dot_S1024x256_S256x1024_S1024x1024_1_0_0_1_n_n.rhsIdx i q 0).val = (q ⟨0, by decide⟩).val :=
  dot_S1024x256_S256x1024_S1024x1024_1_0_0_1_n_n.rhsIdx_val_of_single rfl i q
/-- its column `i`'s column. -/
theorem rhs_mm_1 (i : S1024x1024.Idx) (q : dot_S1024x256_S256x1024_S1024x1024_1_0_0_1_n_n.contr.Idx) :
    (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide),
    dif_pos (show (1 : Fin S256x1024.rank) ∈ dot_S1024x256_S256x1024_S1024x1024_1_0_0_1_n_n.rhsNonContracting by decide)]
  rfl

/-- The block product into the zero accumulator, at entry (p, q): the sum over the 256 contraction indices. -/
theorem matmul_at (a : FVec Ideal S1024x256 .bf16) (b : FVec Ideal S256x1024 .bf16) (p q : Fin 1024) :
    matmul dot_S1024x256_S256x1024_S1024x1024_1_0_0_1_n_n none a b (constant (F := Ideal) S1024x1024 .f32 0x00000000#32) (ix2 p q)
      = ∑ k : Fin 256, a (ix2 p k) * b (ix2 k q) := by
  simp only [matmul]
  rw [Ideal.matmul_constant_zero_apply,
    ← Equiv.sum_comp (contrEquiv1 dot_S1024x256_S256x1024_S1024x1024_1_0_0_1_n_n 256 rfl rfl).symm]
  refine Finset.sum_congr rfl fun k _ => ?_
  have hk := contrEquiv1_symm_val dot_S1024x256_S256x1024_S1024x1024_1_0_0_1_n_n 256 rfl rfl k
  have el : dot_S1024x256_S256x1024_S1024x1024_1_0_0_1_n_n.lhsIdx (ix2 p q)
      ((contrEquiv1 dot_S1024x256_S256x1024_S1024x1024_1_0_0_1_n_n 256 rfl rfl).symm k) = ix2 p k :=
    funext fun a => Fin.ext (by
      match a with
      | ⟨0, _⟩ => exact lhs_mm_0 _ _
      | ⟨1, _⟩ => exact (lhs_mm_1 _ _).trans hk)
  have er : dot_S1024x256_S256x1024_S1024x1024_1_0_0_1_n_n.rhsIdx (ix2 p q)
      ((contrEquiv1 dot_S1024x256_S256x1024_S1024x1024_1_0_0_1_n_n 256 rfl rfl).symm k) = ix2 k q :=
    funext fun a => Fin.ext (by
      match a with
      | ⟨0, _⟩ => exact (rhs_mm_0 _ _).trans hk
      | ⟨1, _⟩ => exact rhs_mm_1 _ _)
  rw [el, er]

/-- The zero block. -/
theorem pay1_at (p q : Fin 1024) : (k1_pay1 (F := Ideal)) (ix2 p q) = 0 := by
  unfold k1_pay1
  rw [shapeCast_self]
  exact Ideal.ofBits_zero_f32

/-- The accumulation step. -/
theorem pay2_at (v3 : Vec Ideal S1024x256 .f32) (v6 : Vec Ideal S256x1024 .f32) (v8 : Vec Ideal S1024x1024 .f32)
    (p q : Fin 1024) :
    k1_pay2 v3 v6 v8 (ix2 p q) = v8 (ix2 p q) + ∑ k : Fin 256, Ideal.tanh (v3 (ix2 p k)) * v6 (ix2 k q) := by
  unfold k1_pay2
  rw [shapeCast_self]
  refine (addf_apply _ _ _).trans ?_
  exact congrArg (v8 (ix2 p q) + ·) (matmul_at _ _ p q)

/-- The store step: the accumulator plus the bias row, the row broadcast down the 1024 rows. -/
theorem pay3_at (v17 : Vec Ideal S1x1024 .f32) (v21 : Vec Ideal S1024x1024 .f32) (p q : Fin 1024) :
    k1_pay3 v17 v21 (ix2 p q) = v21 (ix2 p q) + v17 (ix2 (0 : Fin 1) q) := by
  unfold k1_pay3
  rw [shapeCast_self, shapeCast_self]
  refine (addf_apply _ _ _).trans ?_
  refine congrArg (v21 (ix2 p q) + ·) ?_
  refine broadcastTo_apply v17 broadcasts_S1x1024_S1024x1024 (ix2 p q) (ix2 (0 : Fin 1) q) fun a => ?_
  match a with
  | ⟨0, _⟩ => show (0 : ℕ) = if (1 : ℕ) = 1 then 0 else _; rw [if_pos rfl]
  | ⟨1, _⟩ => show q.val = if (1024 : ℕ) = 1 then 0 else q.val; rw [if_neg (by decide)]

/-! ## The product's summand over natural numbers

The summand tanh(x[r, k]) · w[k, s] as a function of three natural numbers, zero outside the arrays: with it the
partial sums along the contraction axis are sums over ranges of naturals, with no bound carried in an index. -/

/-- tanh(x[r, k]) · w[k, s], zero when an index is outside its array. -/
def term (X : Cert.Spec.SX.Idx → EReal) (W : Cert.Spec.SW.Idx → EReal) (r s k : ℕ) : EReal :=
  if h : r < 8192 ∧ s < 2048 ∧ k < 2048 then
    Ideal.tanh (X (ix2 (⟨r, h.1⟩ : Fin 8192) (⟨k, h.2.2⟩ : Fin 2048))) * W (ix2 (⟨k, h.2.2⟩ : Fin 2048) (⟨s, h.2.1⟩ : Fin 2048))
  else 0

/-- Inside the arrays it is the product. -/
theorem term_eq (X : Cert.Spec.SX.Idx → EReal) (W : Cert.Spec.SW.Idx → EReal) (r s k : ℕ)
    (hr : r < 8192) (hs : s < 2048) (hk : k < 2048) :
    term X W r s k = Ideal.tanh (X (ix2 (⟨r, hr⟩ : Fin 8192) (⟨k, hk⟩ : Fin 2048))) * W (ix2 (⟨k, hk⟩ : Fin 2048) (⟨s, hs⟩ : Fin 2048)) :=
  dif_pos ⟨hr, hs, hk⟩

/-- The specification at entry (r, s): the sum of the summands over all 2048 contraction indices, plus the row's
    entry of column s. -/
theorem spec_at (X : Cert.Spec.SX.Idx → EReal) (W : Cert.Spec.SW.Idx → EReal) (R : Cert.Spec.SRow.Idx → EReal)
    (r : Fin 8192) (s : Fin 2048) :
    Cert.Spec.prodPlusRow X W R (ix2 r s) = (∑ k : Fin 2048, term X W r.val s.val k.val) + R (ix2 (0 : Fin 1) s) := by
  unfold Cert.Spec.prodPlusRow
  refine congrArg (· + R (ix2 (0 : Fin 1) s)) (Finset.sum_congr rfl fun k _ => ?_)
  exact (term_eq X W r.val s.val k.val r.isLt s.isLt k.isLt).symm

/-! ## The scratch accumulator along the contraction axis -/

variable (V : (c : Dev nD) → (b : Ref sig .tc) → Buf (Elt Ideal) ((c : Thread nD τ).loc b))

/-- The block product at point `n` = 16·i + 8·j + kk, at entry (p, q): the summands of row 1024·i + p and column
    1024·j + q over the contraction indices 256·kk … 256·kk + 255. -/
theorem blockprod_at (c : Dev nD) (n : ℕ) (hn : n < cfg1.N) (p q : Fin 1024) :
    ∑ k : Fin 256, Ideal.tanh (xblk1 V c ⟨n, hn⟩ (ix2 p k)) * wblk1 V c ⟨n, hn⟩ (ix2 k q)
      = ∑ k : Fin 256, term (V c main_arg0) (V c main_arg1) (1024 * (n / 16) + p.val) (1024 * (n / 8 % 2) + q.val)
          (256 * (n % 8) + k.val) := by
  refine Finset.sum_congr rfl fun k _ => ?_
  rw [xblk1_apply, wblk1_apply]
  exact (term_eq (V c main_arg0) (V c main_arg1) _ _ _ (hx0 ⟨n, hn⟩ p) (hw1 ⟨n, hn⟩ q) (hx1 ⟨n, hn⟩ k)).symm

/-- THE PARTIAL SUMS: after the body at point `n` = 16·i + 8·j + kk the scratch holds, at entry (p, q), the summands
    of row 1024·i + p and column 1024·j + q over the contraction blocks 0 … kk. Where kk = 0 the scratch was zeroed and
    holds the first block's product; elsewhere the point before (same i and j, contraction coordinate kk − 1) left
    the blocks 0 … kk − 1 and the body added block kk. -/
theorem sc1_at (c : Dev nD) (p q : Fin 1024) (n : ℕ) : ∀ hn : n < cfg1.N,
    sc1 V c n hn (ix2 p q) = ∑ kb ∈ Finset.range (n % 8 + 1), ∑ k : Fin 256,
      term (V c main_arg0) (V c main_arg1) (1024 * (n / 16) + p.val) (1024 * (n / 8 % 2) + q.val) (256 * kb + k.val) := by
  induction n using Nat.strong_induction_on with
  | _ n ih =>
    intro hn
    by_cases h : n % 8 = 0
    · refine (congrFun (sc1_reset V c ⟨n, hn⟩ h) (ix2 p q)).trans ?_
      refine (pay2_at _ _ _ p q).trans ?_
      rw [pay1_at, zero_add, blockprod_at V c n hn p q, h, Finset.sum_range_one]
    · refine (congrFun (sc1_step V c ⟨n, hn⟩ h) (ix2 p q)).trans ?_
      refine (pay2_at _ _ _ p q).trans ?_
      refine (congrArg₂ (· + ·) (ih (n - 1) (by omega) (Nat.lt_of_le_of_lt (Nat.sub_le _ _) hn))
        (blockprod_at V c n hn p q)).trans ?_
      have e1 : (n - 1) / 16 = n / 16 := by omega
      have e2 : (n - 1) / 8 % 2 = n / 8 % 2 := by omega
      have e3 : (n - 1) % 8 + 1 = n % 8 := by omega
      rw [e1, e2, e3, Finset.sum_range_succ]

/-! ## What is written back -/

/-- At a point with contraction coordinate 7 the output window's buffer holds, at entry (p, q), the specification's
    entry of row 1024·i + p and column 1024·j + q: the scratch's eight blocks are the whole contraction sum, and the
    bias row's block starts at column 1024·j. -/
theorem out3_at (c : Dev nD) (t : Fin cfg1.N) (h7 : t.val % 8 = 7) (p q : Fin 1024) :
    out3 V c t (ix2 p q)
      = Cert.Spec.prodPlusRow (V c main_arg0) (V c main_arg1) (V c main_v0)
          (ix2 (⟨1024 * (t.val / 16) + p.val, hx0 t p⟩ : Fin 8192) (⟨1024 * ((t.val / 8) % 2) + q.val, hw1 t q⟩ : Fin 2048)) := by
  unfold out3
  rw [pay3_at, bblk1_apply, sc1_at V c p q t.val t.isLt, spec_at]
  have e : t.val % 8 + 1 = 8 := by omega
  rw [e]
  exact congrArg (· + V c main_v0 (ix2 (0 : Fin 1) (⟨1024 * ((t.val / 8) % 2) + q.val, hw1 t q⟩ : Fin 2048)))
    (Cert.Lib.sum_fin_eq_sum_range_blocks 2048 8 256 rfl
      (term (V c main_arg0) (V c main_arg1) (1024 * (t.val / 16) + p.val) (1024 * ((t.val / 8) % 2) + q.val))).symm

/-- What region 1 writes back at a point with contraction coordinate 7 is that point's block of the specification. -/
theorem flushed3_eq (c : Dev nD) (t : Fin cfg1.N) (h7 : t.val % 8 = 7) :
    (dat1 (F := Ideal) V c).flushed 3 t
      = ((cfg1.win 3).blk t).view.read (Elt Ideal) (Cert.Spec.prodPlusRow (V c main_arg0) (V c main_arg1) (V c main_v0)) := by
  show (cfg1.win 3).cut (grid1.coords t) ((dat1 (F := Ideal) V c).after 3 t) = _
  rw [after1_3]
  funext j
  obtain ⟨p, q, rfl⟩ : ∃ (p q : Fin 1024), j = ix2 p q := ⟨j 0, j 1, eq_ix2 j⟩
  rw [outblk_read_apply]
  exact out3_at V c t h7 p q

end Cert.KernelIdeal.HandValue

end
-- ==== Proof.MatmulValue.lean ====
/-
  The value of region 1 at the ideal instance: the 8 × 2 output blocks, each written back once (at contraction
  coordinate 7), tile the 8192×2048 output array, and each holds its block of
  (r, j) ↦ (∑ k, tanh(x[r, k]) · w[k, j]) + row[j]; so the array ends holding that function.
-/
import proofs.«169282_j52450140619301_1_alg».proof.Proof.KernelIdeal.MatmulDefs
import proofs.«169282_j52450140619301_1_alg».proof.Proof.MatmulBlock
import proofs.«169282_j52450140619301_1_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The output window's block index at a point, in closed form of the point's number t = 16·a + 8·b + k:
    the row block is a = t / 16 and the column block is b = (t / 8) mod 2. Decided once over the 128 points. -/
theorem idx_facts3 : ∀ t : Fin cfg1.N, win1_3.index t (0 : Fin 2) = t.val / 16
    ∧ win1_3.index t (1 : Fin 2) = (t.val / 8) % 2 :=
  (by decide +kernel : ∀ t : Fin grid1.N, win1_3.index t (0 : Fin 2) = t.val / 16
    ∧ win1_3.index t (1 : Fin 2) = (t.val / 8) % 2)

/-- An index of the output array is in a point's block iff each coordinate lies in the block's range on its axis:
    the block at block index q on an axis of block length 1024 is the range [1024·q, 1024·q + 1024). -/
theorem mem_blk3 (t : Fin cfg1.N) (i : S8192x2048.Idx) :
    i ∈ ((cfg1.win 3).blk t).view.set ↔ ∀ a : Fin 2, win1_3.index t a * S1024x1024.size a ≤ (i a).val
      ∧ (i a).val < win1_3.index t a * S1024x1024.size a + S1024x1024.size a := by
  show i ∈ ((View.whole main_v1).slice (win1_3.rect t)).set ↔ _
  rw [View.set_slice_whole, Rect.mem_set_unit]
  exact Iff.rfl

/-- Every index of the output array lies in the block of a point that writes back: the index (r, j) is in the block
    (r / 1024, j / 1024), and the point of that block with contraction coordinate 7 has number
    16·(r / 1024) + 8·(j / 1024) + 7, which is ≡ 7 (mod 8). -/
theorem cover3 (i : Cert.Spec.SX.Idx) :
    ∃ t : Fin cfg1.N, (cfg1.win 3).flush t = true ∧ i ∈ ((cfg1.win 3).blk t).view.set := by
  have hr : (i 0).val < 8192 := (i 0).isLt
  have hj : (i 1).val < 2048 := (i 1).isLt
  have hlt : 16 * ((i 0).val / 1024) + 8 * ((i 1).val / 1024) + 7 < cfg1.N :=
    Nat.lt_of_lt_of_eq (by omega) N_1.symm
  obtain ⟨t, htv⟩ : ∃ t : Fin cfg1.N, t.val = 16 * ((i 0).val / 1024) + 8 * ((i 1).val / 1024) + 7 :=
    ⟨⟨_, hlt⟩, rfl⟩
  refine ⟨t, (flush1_3 t).mpr (by omega), ?_⟩
  obtain ⟨e0, e1⟩ := idx_facts3 t
  rw [mem_blk3]
  intro a
  match a with
  | ⟨0, _⟩ =>
    show win1_3.index t (0 : Fin 2) * 1024 ≤ (i 0).val ∧ (i 0).val < win1_3.index t (0 : Fin 2) * 1024 + 1024
    omega
  | ⟨1, _⟩ =>
    show win1_3.index t (1 : Fin 2) * 1024 ≤ (i 1).val ∧ (i 1).val < win1_3.index t (1 : Fin 2) * 1024 + 1024
    omega

/-- After region 1 the output array holds tanh(x)·w plus the bias row, as functions of the arrays the region read. -/
theorem matmul_array (c : Dev nD) :
    ((dat1 (F := Ideal) V c).arrAt 3 cfg1.N : Cert.Spec.SX.Idx → EReal)
      = Cert.Spec.prodPlusRow (V c main_arg0) (V c main_arg1) (V c main_v0) :=
  (dat1 (F := Ideal) V c).arrAt_eq_of_cover 3 _ (fun t hf => flushed3_eq V c t ((flush1_3 t).mp hf)) cover3

end Cert.KernelIdeal.HandValue

end
-- ==== Proof.RefValue.lean ====
/-
  The reference program at the ideal instance computes the specification: its product is the host's dot over all
  2048 contraction indices of tanh of the first argument against the second, its bias the host's sum of the third
  argument over its rows, broadcast to every row of the product and added.
-/
import proofs.«169282_j52450140619301_1_alg».proof.Proof.Gen.ReferenceIdeal.Run
import proofs.«169282_j52450140619301_1_alg».proof.Proof.Gen.ReferenceIdeal.Read
import proofs.«169282_j52450140619301_1_alg».proof.Proof.Spec
import Idealize.ShloMosaic.PureOps.Ideal.Laws
import Idealize.ShloMosaic.Lib.ValueIdx
import Idealize.ShloMosaic.Lib.ValueLayout

set_option maxRecDepth 16384

noncomputable section

namespace Cert.ReferenceIdeal.RefValue

open Cert.ReferenceIdeal Cert.ReferenceIdeal.Gen
open Idealize.ShloMosaic Idealize.ShloMosaic.TcCoe Idealize.ShloMosaic.ValueIdx

/-- The product's left operand, at result index `i` and contraction index `k`, is read at row `i 0`, column `k`. -/
theorem lidx_eq (i : Cert.Spec.SX.Idx) (k : Fin 2048) :
    Cert.ReferenceIdeal.Read.lidx_main_v1 i k = ix2 (i 0) k :=
  funext fun a => Fin.ext (by match a with | ⟨0, _⟩ => rfl | ⟨1, _⟩ => rfl)

/-- The product's right operand, at result index `i` and contraction index `k`, is read at row `k`, column `i 1`. -/
theorem ridx_eq (i : Cert.Spec.SX.Idx) (k : Fin 2048) :
    Cert.ReferenceIdeal.Read.ridx_main_v1 i k = ix2 k (i 1) :=
  funext fun a => Fin.ext (by match a with | ⟨0, _⟩ => rfl | ⟨1, _⟩ => rfl)

/-- The bias at result index `i` goes back through the two broadcasts to column `i 1` of the row of sums, whose
    `k`-th summand is the third argument at row `k`, column `i 1`. -/
theorem bias_idx_eq (i : Cert.Spec.SX.Idx) (k : Fin 2048) :
    Cert.ReferenceIdeal.Read.idx_main_v2
      (Cert.ReferenceIdeal.Read.idx_main_v3 (Cert.ReferenceIdeal.Read.idx_main_v4 i)) k = ix2 k (i 1) :=
  funext fun a => Fin.ext (by match a with | ⟨0, _⟩ => rfl | ⟨1, _⟩ => rfl)

/-- The reference's last stage, at the ideal instance, is the specification of the three arguments. -/
theorem ref_is_result (x0 : Cert.Spec.SX.Idx → EReal) (x1 x2 : Cert.Spec.SW.Idx → EReal) :
    Cert.ReferenceIdeal.Read.val_main_v5 (F := Ideal) x0 x1 x2 = Cert.Spec.result x0 x1 x2 := by
  funext i
  -- the sum of the product and the twice-broadcast row of column sums, each read at `i`
  rw [Cert.ReferenceIdeal.Read.val_main_v5_apply, Cert.ReferenceIdeal.Read.val_main_v1_apply,
    Cert.ReferenceIdeal.Read.val_main_v4_apply, Cert.ReferenceIdeal.Read.val_main_v3_apply,
    Cert.ReferenceIdeal.Read.val_main_v2_apply, Cert.ReferenceIdeal.Read.val_main_cst_apply]
  -- at the extended reals: the host's tanh is tanh, the float sum is +, the zero word is 0, and 0 + s = s
  simp only [Cert.ReferenceIdeal.Read.val_main_v0_apply, lidx_eq, ridx_eq, bias_idx_eq,
    Ideal.hostUnary_tanh_def, Ideal.addf_def, Ideal.ofBits_def, Ideal.ofBits_zero_f32, zero_add]
  rfl

end Cert.ReferenceIdeal.RefValue

end
-- ==== Proof.lean ====
/-
  The certificate. Both programs, read at the ideal instance, compute

      result[r, j] = (∑ k, tanh(x[r, k]) · w[k, j]) + ∑ i, b[i, j]        (Proof/Spec.lean)

  over the extended reals. The kernel program does it in two regions: the first accumulates the column sums of b over
  four blocks of 512 rows into a 1×2048 row; the second accumulates tanh(x)·w over eight contraction blocks of 256
  into a scratch block per output block and stores it with the row added. The reference computes one whole dot and
  one whole column sum. The two agree because a sum over 2048 indices is the sum of its blocks' sums, in any grouping:
  addition on the extended reals is commutative and associative, and adding the zero the accumulators start from
  changes nothing. No finiteness is needed, so the precondition is never opened.
  The three frames: each kernel program's run (Proof/Kernel/Run.lean at the word level, Proof/KernelIdeal/Run.lean at
  the ideal instance) ends with every argument as launched; the reference's is its run with the result dropped.
-/
import proofs.«169282_j52450140619301_1_alg».proof.Defs
import proofs.«169282_j52450140619301_1_alg».proof.Proof.Gen.Kernel
import proofs.«169282_j52450140619301_1_alg».proof.Proof.Gen.KernelIdeal
import proofs.«169282_j52450140619301_1_alg».proof.Proof.Gen.ReferenceIdeal
import proofs.«169282_j52450140619301_1_alg».proof.Proof.Gen.Pre_finite_inputs
import proofs.«169282_j52450140619301_1_alg».proof.Proof.Kernel.Run
import proofs.«169282_j52450140619301_1_alg».proof.Proof.KernelIdeal.Run
import proofs.«169282_j52450140619301_1_alg».proof.Proof.BiasValue
import proofs.«169282_j52450140619301_1_alg».proof.Proof.MatmulValue
import proofs.«169282_j52450140619301_1_alg».proof.Proof.RefValue

noncomputable section

namespace Cert.Proof

open Idealize.ShloMosaic Idealize.ShloMosaic.TcCoe Idealize.SL.Sem

theorem frame_kernel : Cert.frame_Kernel := fun m ρ _ => Cert.Kernel.Hand.frame m ρ
theorem frame_kernelIdeal : Cert.frame_KernelIdeal := fun m ρ _ => Cert.KernelIdeal.Hand.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the program's own text read at the ideal instance. -/
theorem preserves : Cert.preserves_Kernel_KernelIdeal := trivial

/-- The kernel program's result array ends at the specification of its arguments: region 1 leaves the product plus
    the row it read, and that row is what region 0 left, the column sums of the third argument. -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    ((Cert.KernelIdeal.Hand.dat1 (F := Ideal) (Cert.KernelIdeal.Hand.V1 m ρ) c).arrAt 3 Cert.KernelIdeal.cfg1.N : Cert.Spec.SX.Idx → EReal)
      = Cert.Spec.result (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) := by
  rw [Cert.KernelIdeal.HandValue.matmul_array, Cert.KernelIdeal.Hand.V1_main_arg0, Cert.KernelIdeal.Hand.V1_main_arg1,
    Cert.KernelIdeal.Hand.V1_main_v0, Cert.KernelIdeal.HandValue.bias_array, Cert.KernelIdeal.Hand.V0_main_arg2]
  rfl

theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono (fun _ h c => ⟨(h c).1.trans (kernel_result m ρ c), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v5_eq, Cert.ReferenceIdeal.RefValue.ref_is_result,
      (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
